-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x16 : Shape := ⟨2, ![1600000, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v50 : IVec S1600000 32) (main_c_18 : IVec S_ 32) : IVec S_ 1 :=
  let main_v51 : IVec S1600000 32 := broadcastInDim S1600000 ![] bcast_S_S1600000 main_c_18
  let main_v52 : IVec S1600000 1 := cmpi .sge main_v50 main_v51
  let main_v53 : IVec S1x1600000 32 := (extractStridedSlice S1x1600000 ![0, 0] · slices_S2x1600000_S1x1600000_0_0) main_arg1
  let main_v54 : IVec S1600000 32 := shapeCast S1600000 main_v53 shapeCasts_S1x1600000_S1600000
  let main_c_19 : IVec S_ 32 := constantI S_ 32 50000#32
  let main_v55 : IVec S1600000 32 := broadcastInDim S1600000 ![] bcast_S_S1600000 main_c_19
  let main_v56 : IVec S1600000 1 := cmpi .slt main_v54 main_v55
  let main_v57 : IVec S1600000 1 := andi main_v52 main_v56
  let main_c_20 : IVec S_ 1 := constantI S_ 1 1#1
  let main_v58 : IVec S_ 1 := (fun x v => Host.reduce IntOp.andi x v reducesTo_S1600000_S_d0 h_S_) main_v57 main_c_20
  let main_v59 : IVec S_ 1 := andi main_v48 main_v58
  main_v59

def fn_part2 {F : FTy → Type} [FloatOps F] (main_arg1 : IVec S2x1600000 32) (main_arg8 : FVec F S128 .f32) (main_arg9 : FVec F S128x40 .f32) (main_arg10 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x40 .f32 := Host.absf main_arg9
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : IVec S1x1600000 32 := (extractStridedSlice S1x1600000 ![0, 0] · slices_S2x1600000_S1x1600000_0_0) main_arg1
  let main_v50 : IVec S1600000 32 := shapeCast S1600000 main_v49 shapeCasts_S1x1600000_S1600000
  let main_c_18 : IVec S_ 32 := constantI S_ 32 4294917296#32
  fn_part3 (F := F) main_arg1 main_v48 main_v50 main_c_18

def fn_part1 {F : FTy → Type} [FloatOps F] (main_arg1 : IVec S2x1600000 32) (main_arg5 : FVec F S32x1 .f32) (main_arg6 : FVec F S1 .f32) (main_arg7 : FVec F S128x128 .f32) (main_arg8 : FVec F S128 .f32) (main_arg9 : FVec F S128x40 .f32) (main_arg10 : FVec F S40 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x1 .f32 := Host.absf main_arg5
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x1600000 32) (main_arg2 : FVec F S1600000x16 .f32) (main_arg3 : FVec F S16x32 .f32) (main_arg4 : FVec F S32 .f32) (main_arg5 : FVec F S32x1 .f32) (main_arg6 : FVec F S1 .f32) (main_arg7 : FVec F S128x128 .f32) (main_arg8 : FVec F S128 .f32) (main_arg9 : FVec F S128x40 .f32) (main_arg10 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x1600000 : Shape := ⟨2, ![2, 1600000]⟩
abbrev S1600000x16 : Shape := ⟨2, ![1600000, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S1x32 : Shape := ⟨2, ![1, 32]⟩
abbrev S1x1 : Shape := ⟨2, ![1, 1]⟩
abbrev S1600000x1 : Shape := ⟨2, ![1600000, 1]⟩
abbrev S16000x16 : Shape := ⟨2, ![16000, 16]⟩
abbrev S16000x1 : Shape := ⟨2, ![16000, 1]⟩
abbrev S16000x32 : Shape := ⟨2, ![16000, 32]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S50000x1 : Shape := ⟨2, ![50000, 1]⟩
abbrev S1650000x128 : Shape := ⟨2, ![1650000, 128]⟩
abbrev S1x128 : Shape := ⟨2, ![1, 128]⟩
abbrev S50000x40 : Shape := ⟨2, ![50000, 40]⟩
abbrev S5000x40 : Shape := ⟨2, ![5000, 40]⟩
abbrev S1650000x40 : Shape := ⟨2, ![1650000, 40]⟩
abbrev S1x40 : Shape := ⟨2, ![1, 40]⟩

abbrev nBuf : Space → Nat
  | .hbm => 118
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x16, .f32⟩
  | .hbm, ⟨3, _⟩ => ⟨S16x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x32, .f32⟩
  | .hbm, ⟨16, _⟩ => ⟨S1x1, .f32⟩
  | .hbm, ⟨17, _⟩ => ⟨S1600000x1, .f32⟩
  | .hbm, ⟨18, _⟩ => ⟨S1600000, .f32⟩
  | .hbm, ⟨19, _⟩ => ⟨S50000, .i32⟩
  | .hbm, ⟨20, _⟩ => ⟨S1650000, .i32⟩
  | .hbm, ⟨21, _⟩ => ⟨S1650000, .i32⟩
  | .hbm, ⟨22, _⟩ => ⟨S_, .f32⟩
  | .hbm, ⟨23, _⟩ => ⟨S50000, .f32⟩
  | .hbm, ⟨24, _⟩ => ⟨S1650000, .f32⟩
  | .hbm, ⟨25, _⟩ => ⟨S_, .f32⟩
  | .hbm, ⟨26, _⟩ => ⟨S50000, .f32⟩
  | .hbm, ⟨27, _⟩ => ⟨S1650000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1, .i32⟩
  | .hbm, ⟨59, _⟩ => ⟨S_, .i32⟩
  | .hbm, ⟨60, _⟩ => ⟨S1650000x1, .i32⟩
  | .hbm, ⟨61, _⟩ => ⟨S1650000x1, .i1⟩
  | .hbm, ⟨62, _⟩ => ⟨S1x1, .i32⟩
  | .hbm, ⟨63, _⟩ => ⟨S1650000x1, .i32⟩
  | .hbm, ⟨64, _⟩ => ⟨S1650000x1, .i1⟩
  | .hbm, ⟨65, _⟩ => ⟨S1650000x1, .i1⟩
  | .hbm, ⟨66, _⟩ => ⟨S_, .i1⟩
  | .hbm, ⟨67, _⟩ => ⟨S1650000, .i1⟩
  | .hbm, ⟨68, _⟩ => ⟨S1650000x128, .f32⟩
  | .hbm, ⟨69, _⟩ => ⟨S1650000x128, .i1⟩
  | .hbm, ⟨70, _⟩ => ⟨S_, .f32⟩
  | .hbm, ⟨71, _⟩ => ⟨S1650000x128, .f32⟩
  | .hbm, ⟨72, _⟩ => ⟨S1650000x128, .f32⟩
  | .hbm, ⟨73, _⟩ => ⟨S1650000x1, .f32⟩
  | .hbm, ⟨74, _⟩ => ⟨S1650000x128, .f32⟩
  | .hbm, ⟨75, _⟩ => ⟨S1650000x128, .f32⟩
  | .hbm, ⟨76, _⟩ => ⟨S_, .f32⟩
  | .hbm, ⟨77, _⟩ => ⟨S50000x128, .f32⟩
  | .hbm, ⟨78, _⟩ => ⟨S1650000x1, .i32⟩
  | .hbm, ⟨79, _⟩ => ⟨S50000x128, .f32⟩
  | .hbm, ⟨80, _⟩ => ⟨S1x128, .f32⟩
  | .hbm, ⟨81, _⟩ => ⟨S50000x40, .f32⟩
  | .hbm, ⟨82, _⟩ => ⟨S50000x1, .f32⟩
  | .hbm, ⟨83, _⟩ => ⟨S50000x40, .f32⟩
  | .hbm, ⟨84, _⟩ => ⟨S50000x40, .f32⟩
  | .hbm, ⟨85, _⟩ => ⟨S_, .i32⟩
  | .hbm, ⟨86, _⟩ => ⟨S1650000, .i32⟩
  | .hbm, ⟨87, _⟩ => ⟨S1650000, .i1⟩
  | .hbm, ⟨88, _⟩ => ⟨S_, .i32⟩
  | .hbm, ⟨89, _⟩ => ⟨S1650000, .i32⟩
  | .hbm, ⟨90, _⟩ => ⟨S1650000, .i32⟩
  | .hbm, ⟨91, _⟩ => ⟨S1650000, .i32⟩
  | .hbm, ⟨92, _⟩ => ⟨S1650000x1, .i32⟩
  | .hbm, ⟨93, _⟩ => ⟨S1, .i32⟩
  | .hbm, ⟨94, _⟩ => ⟨S_, .i32⟩
  | .hbm, ⟨95, _⟩ => ⟨S1650000x1, .i32⟩
  | .hbm, ⟨96, _⟩ => ⟨S1650000x1, .i1⟩
  | .hbm, ⟨97, _⟩ => ⟨S1x1, .i32⟩
  | .hbm, ⟨98, _⟩ => ⟨S1650000x1, .i32⟩
  | .hbm, ⟨99, _⟩ => ⟨S1650000x1, .i1⟩
  | .hbm, ⟨100, _⟩ => ⟨S1650000x1, .i1⟩
  | .hbm, ⟨101, _⟩ => ⟨S_, .i1⟩
  | .hbm, ⟨102, _⟩ => ⟨S1650000, .i1⟩
  | .hbm, ⟨103, _⟩ => ⟨S1650000x40, .f32⟩
  | .hbm, ⟨104, _⟩ => ⟨S1650000x40, .i1⟩
  | .hbm, ⟨105, _⟩ => ⟨S_, .f32⟩
  | .hbm, ⟨106, _⟩ => ⟨S1650000x40, .f32⟩
  | .hbm, ⟨107, _⟩ => ⟨S1650000x40, .f32⟩
  | .hbm, ⟨108, _⟩ => ⟨S1650000x1, .f32⟩
  | .hbm, ⟨109, _⟩ => ⟨S1650000x40, .f32⟩
  | .hbm, ⟨110, _⟩ => ⟨S1650000x40, .f32⟩
  | .hbm, ⟨111, _⟩ => ⟨S_, .f32⟩
  | .hbm, ⟨112, _⟩ => ⟨S50000x40, .f32⟩
  | .hbm, ⟨113, _⟩ => ⟨S1650000x1, .i32⟩
  | .hbm, ⟨114, _⟩ => ⟨S50000x40, .f32⟩
  | .hbm, ⟨115, _⟩ => ⟨S1x40, .f32⟩
  | .hbm, ⟨116, _⟩ => ⟨S50000x40, .f32⟩
  | .hbm, ⟨117, _⟩ => ⟨S50000x40, .f32⟩
  | .local _ .vmem, ⟨0, _⟩ => ⟨S16000x16, .f32⟩
  | .local _ .vmem, ⟨1, _⟩ => ⟨S16000x16, .f32⟩
  | .local _ .vmem, ⟨2, _⟩ => ⟨S16x32, .f32⟩
  | .local _ .vmem, ⟨3, _⟩ => ⟨S1x32, .f32⟩
  | .local _ .vmem, ⟨4, _⟩ => ⟨S32x1, .f32⟩
  | .local _ .vmem, ⟨5, _⟩ => ⟨S1x1, .f32⟩
  | .local _ .vmem, ⟨6, _⟩ => ⟨S16000x1, .f32⟩
  | .local _ .vmem, ⟨7, _⟩ => ⟨S16000x1, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S128x40, .f32⟩
  | .local _ .vmem, ⟨17, _⟩ => ⟨S5000x40, .f32⟩
  | .local _ .vmem, ⟨18, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_4 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_cst_5 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S32_S1x32 : S32.ShapeCasts S1x32
  shapeCasts_S1_S1x1 : S1.ShapeCasts S1x1
  inb_S16000x16_S16000x16_0_0 : ∀ a, (![0, 0] : Fin 2 → Nat) a + S16000x16.size a ≤ S16000x16.size a
  h_S16000x16 : 0 < S16000x16.numel
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16000x32 : S1x32.Broadcasts S16000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  shapeCasts_S1600000x1_S1600000 : S1600000x1.ShapeCasts S1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S1650000x1 : S_.BroadcastsInDim S1650000x1 (![] : Fin 0 → Fin S1650000x1.rank)
  bcast_S1_S1x1_1 : S1.BroadcastsInDim S1x1 (![1] : Fin 1 → Fin S1x1.rank)
  bcast_S1x1_S1650000x1_0_1 : S1x1.BroadcastsInDim S1650000x1 (![0, 1] : Fin 2 → Fin S1650000x1.rank)
  reducesTo_S1650000x1_S1650000_d1 : S1650000x1.ReducesTo [1] S1650000
  h_S_ : 0 < S_.numel
  bcast_S1650000_S1650000x128_0 : S1650000.BroadcastsInDim S1650000x128 (![0] : Fin 1 → Fin S1650000x128.rank)
  bcast_S_S1650000x128 : S_.BroadcastsInDim S1650000x128 (![] : Fin 0 → Fin S1650000x128.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S50000x1_S50000x40_0_1 : S50000x1.BroadcastsInDim S50000x40 (![0, 1] : Fin 2 → Fin S50000x40.rank)
  bcast_S1650000_S1650000x40_0 : S1650000.BroadcastsInDim S1650000x40 (![0] : Fin 1 → Fin S1650000x40.rank)
  bcast_S_S1650000x40 : S_.BroadcastsInDim S1650000x40 (![] : Fin 0 → Fin S1650000x40.rank)
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S16000x16_S16x32_S16000x32_1_0_0_1_n_n_wf : DotDims.WF S16000x16 S16x32 S16000x32 [1] [0] [0] [1] [] []
  dot_S16000x32_S32x1_S16000x1_1_0_0_1_n_n_wf : DotDims.WF S16000x32 S32x1 S16000x1 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x40_S5000x40_1_0_0_1_n_n_wf : DotDims.WF S5000x128 S128x40 S5000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x16.size a ≤ S1600000x16.size a
  hwx0_0 : ∀ i : grid0.Coords, EltTy.bits .f32 = 32 ∨ (Rect.block (s := S1600000x16) S16000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x1.size a ≤ S1600000x1.size a
  hwx0_5 : ∀ i : grid0.Coords, EltTy.bits .f32 = 32 ∨ (Rect.block (s := S1600000x1) S16000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def dot_S16000x16_S16x32_S16000x32_1_0_0_1_n_n : DotDims S16000x16 S16x32 S16000x32 where
  lhsContracting := [1]
  rhsContracting := [0]
  lhsNonContracting := [0]
  rhsNonContracting := [1]
  lhsBatch := []
  rhsBatch := []
  wf := dot_S16000x16_S16x32_S16000x32_1_0_0_1_n_n_wf
def dot_S16000x32_S32x1_S16000x1_1_0_0_1_n_n : DotDims S16000x32 S32x1 S16000x1 where
  lhsContracting := [1]
  rhsContracting := [0]
  lhsNonContracting := [0]
  rhsNonContracting := [1]
  lhsBatch := []
  rhsBatch := []
  wf := dot_S16000x32_S32x1_S16000x1_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

abbrev win0_0 : Pipeline.Window sig grid0 :=
  Pipeline.Window.ofSpec (Memref.whole main_arg2) S16000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S16000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x16 : Shape := ⟨2, ![1600000, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S1600000x32 : Shape := ⟨2, ![1600000, 32]⟩
abbrev S1x32 : Shape := ⟨2, ![1, 32]⟩
abbrev S_ : Shape := ⟨0, ![]⟩
abbrev S1600000x1 : Shape := ⟨2, ![1600000, 1]⟩
abbrev S1x1 : Shape := ⟨2, ![1, 1]⟩
abbrev S50000 : Shape := ⟨1, ![50000]⟩
abbrev S1650000 : Shape := ⟨1, ![1650000]⟩
abbrev S1650000x1 : Shape := ⟨2, ![1650000, 1]⟩
abbrev S1650000x128 : Shape := ⟨2, ![1650000, 128]⟩
abbrev S1x128 : Shape := ⟨2, ![1, 128]⟩
abbrev S50000x40 : Shape := ⟨2, ![50000, 40]⟩
abbrev S1650000x40 : Shape := ⟨2, ![1650000, 40]⟩
abbrev S1x40 : Shape := ⟨2, ![1, 40]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x1600000, .i32⟩
  | 2 => ⟨S1600000x16, .f32⟩
  | 3 => ⟨S16x32, .f32⟩
  | 4 => ⟨S32, .f32⟩
  | 5 => ⟨S32x1, .f32⟩
  | 6 => ⟨S1, .f32⟩
  | 7 => ⟨S128x128, .f32⟩
  | 8 => ⟨S128, .f32⟩
  | 9 => ⟨S128x40, .f32⟩
  | 10 => ⟨S40, .f32⟩
  | 11 => ⟨S1x1600000, .i32⟩
  | 12 => ⟨S1600000, .i32⟩
  | 13 => ⟨S1x1600000, .i32⟩
  | 14 => ⟨S1600000, .i32⟩
  | 15 => ⟨S1600000x32, .f32⟩
  | 16 => ⟨S1x32, .f32⟩
  | 17 => ⟨S1600000x32, .f32⟩
  | 18 => ⟨S1600000x32, .f32⟩
  | 19 => ⟨S_, .f32⟩
  | 20 => ⟨S1600000x32, .f32⟩
  | 21 => ⟨S1600000x32, .f32⟩
  | 22 => ⟨S1600000x1, .f32⟩
  | 23 => ⟨S1x1, .f32⟩
  | 24 => ⟨S1600000x1, .f32⟩
  | 25 => ⟨S1600000x1, .f32⟩
  | 26 => ⟨S1600000x1, .f32⟩
  | 27 => ⟨S1600000x1, .f32⟩
  | 28 => ⟨S_, .f32⟩
  | 29 => ⟨S1600000x1, .f32⟩
  | 30 => ⟨S1600000x1, .f32⟩
  | 31 => ⟨S_, .f32⟩
  | 32 => ⟨S1600000x1, .f32⟩
  | 33 => ⟨S1600000x1, .f32⟩
  | 34 => ⟨S1600000, .f32⟩
  | 35 => ⟨S50000, .i32⟩
  | 36 => ⟨S1650000, .i32⟩
  | 37 => ⟨S1650000, .i32⟩
  | 38 => ⟨S_, .f32⟩
  | 39 => ⟨S50000, .f32⟩
  | 40 => ⟨S1650000, .f32⟩
  | 41 => ⟨S_, .f32⟩
  | 42 => ⟨S50000, .f32⟩
  | 43 => ⟨S1650000x1, .i32⟩
  | 44 => ⟨S50000, .f32⟩
  | 45 => ⟨S_, .f32⟩
  | 46 => ⟨S50000, .f32⟩
  | 47 => ⟨S50000, .i1⟩
  | 48 => ⟨S50000, .f32⟩
  | 49 => ⟨S_, .f32⟩
  | 50 => ⟨S50000, .f32⟩
  | 51 => ⟨S50000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000, .f32⟩
  | 61 => ⟨S1650000, .f32⟩
  | 62 => ⟨S_, .i32⟩
  | 63 => ⟨S1650000, .i32⟩
  | 64 => ⟨S1650000, .i1⟩
  | 65 => ⟨S_, .i32⟩
  | 66 => ⟨S1650000, .i32⟩
  | 67 => ⟨S1650000, .i32⟩
  | 68 => ⟨S1650000, .i32⟩
  | 69 => ⟨S1650000x1, .i32⟩
  | 70 => ⟨S1650000, .f32⟩
  | 71 => ⟨S1650000, .f32⟩
  | 72 => ⟨S50000x128, .f32⟩
  | 73 => ⟨S_, .i32⟩
  | 74 => ⟨S1650000, .i32⟩
  | 75 => ⟨S1650000, .i1⟩
  | 76 => ⟨S_, .i32⟩
  | 77 => ⟨S1650000, .i32⟩
  | 78 => ⟨S1650000, .i32⟩
  | 79 => ⟨S1650000, .i32⟩
  | 80 => ⟨S1650000x1, .i32⟩
  | 81 => ⟨S1650000x128, .f32⟩
  | 82 => ⟨S1650000x1, .f32⟩
  | 83 => ⟨S1650000x128, .f32⟩
  | 84 => ⟨S1650000x128, .f32⟩
  | 85 => ⟨S_, .f32⟩
  | 86 => ⟨S50000x128, .f32⟩
  | 87 => ⟨S1650000x1, .i32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000, .i32⟩
  | 96 => ⟨S1650000, .i32⟩
  | 97 => ⟨S1650000, .i32⟩
  | 98 => ⟨S_, .f32⟩
  | 99 => ⟨S50000, .f32⟩
  | 100 => ⟨S1650000, .f32⟩
  | 101 => ⟨S_, .f32⟩
  | 102 => ⟨S50000, .f32⟩
  | 103 => ⟨S1650000x1, .i32⟩
  | 104 => ⟨S50000, .f32⟩
  | 105 => ⟨S_, .f32⟩
  | 106 => ⟨S50000, .f32⟩
  | 107 => ⟨S50000, .i1⟩
  | 108 => ⟨S50000, .f32⟩
  | 109 => ⟨S_, .f32⟩
  | 110 => ⟨S50000, .f32⟩
  | 111 => ⟨S50000, .f32⟩
  | 112 => ⟨S_, .i32⟩
  | 113 => ⟨S1650000, .i32⟩
  | 114 => ⟨S1650000, .i1⟩
  | 115 => ⟨S_, .i32⟩
  | 116 => ⟨S1650000, .i32⟩
  | 117 => ⟨S1650000, .i32⟩
  | 118 => ⟨S1650000, .i32⟩
  | 119 => ⟨S1650000x1, .i32⟩
  | 120 => ⟨S1650000, .f32⟩
  | 121 => ⟨S1650000, .f32⟩
  | 122 => ⟨S_, .i32⟩
  | 123 => ⟨S1650000, .i32⟩
  | 124 => ⟨S1650000, .i1⟩
  | 125 => ⟨S_, .i32⟩
  | 126 => ⟨S1650000, .i32⟩
  | 127 => ⟨S1650000, .i32⟩
  | _ => ⟨S50000x128, .f32⟩

abbrev hbmTy0_1 (i : Nat) : BufTy := match i % 128 with
  | 0 => ⟨S1650000, .i32⟩
  | 1 => ⟨S1650000x1, .i32⟩
  | 2 => ⟨S1650000, .f32⟩
  | 3 => ⟨S1650000, .f32⟩
  | 4 => ⟨S50000x40, .f32⟩
  | 5 => ⟨S_, .i32⟩
  | 6 => ⟨S1650000, .i32⟩
  | 7 => ⟨S1650000, .i1⟩
  | 8 => ⟨S_, .i32⟩
  | 9 => ⟨S1650000, .i32⟩
  | 10 => ⟨S1650000, .i32⟩
  | 11 => ⟨S1650000, .i32⟩
  | 12 => ⟨S1650000x1, .i32⟩
  | 13 => ⟨S1650000x40, .f32⟩
  | 14 => ⟨S1650000x1, .f32⟩
  | 15 => ⟨S1650000x40, .f32⟩
  | 16 => ⟨S1650000x40, .f32⟩
  | 17 => ⟨S_, .f32⟩
  | 18 => ⟨S50000x40, .f32⟩
  | 19 => ⟨S1650000x1, .i32⟩
  | 20 => ⟨S50000x40, .f32⟩
  | 21 => ⟨S1x40, .f32⟩
  | 22 => ⟨S50000x40, .f32⟩
  | 23 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_c : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_14 : Ref sig .tc := ⟨.hbm, 109, rfl⟩
abbrev main_v78 : Ref sig .tc := ⟨.hbm, 110, rfl⟩
abbrev main_v79 : Ref sig .tc := ⟨.hbm, 111, rfl⟩
abbrev main_c_15 : Ref sig .tc := ⟨.hbm, 112, rfl⟩
abbrev main_v80 : Ref sig .tc := ⟨.hbm, 113, rfl⟩
abbrev main_v81 : Ref sig .tc := ⟨.hbm, 114, rfl⟩
abbrev main_c_16 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_17 : Ref sig .tc := ⟨.hbm, 122, rfl⟩
abbrev main_v88 : Ref sig .tc := ⟨.hbm, 123, rfl⟩
abbrev main_v89 : Ref sig .tc := ⟨.hbm, 124, rfl⟩
abbrev main_c_18 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_19 : Ref sig .tc := ⟨.hbm, 133, rfl⟩
abbrev main_v97 : Ref sig .tc := ⟨.hbm, 134, rfl⟩
abbrev main_v98 : Ref sig .tc := ⟨.hbm, 135, rfl⟩
abbrev main_c_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_21 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S1600000x16_S16x32_S1600000x32_1_0_0_1_n_n_wf : DotDims.WF S1600000x16 S16x32 S1600000x32 [1] [0] [0] [1] [] []
  dot_S1600000x32_S32x1_S1600000x1_1_0_0_1_n_n_wf : DotDims.WF S1600000x32 S32x1 S1600000x1 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x40_S50000x40_1_0_0_1_n_n_wf : DotDims.WF S50000x128 S128x40 S50000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1

variable [Facts₀]

def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def dot_S1600000x32_S32x1_S1600000x1_1_0_0_1_n_n : DotDims S1600000x32 S32x1 S1600000x1 where
  lhsContracting := [1]
  rhsContracting := [0]
  lhsNonContracting := [0]
  rhsNonContracting := [1]
  lhsBatch := []
  rhsBatch := []
  wf := dot_S1600000x32_S32x1_S1600000x1_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

class Facts : Prop extends Facts₀ where

variable [Facts]
-- ==== Proof.Stages.lean ====
/-
  The host side of the two graph-convolution layers, stage by stage, as functions of what they read.

  An edge list of 1600000 (source, target) pairs over 50000 nodes is extended by one self-loop per node; an edge
  weight w(e) (1 on a self-loop) gives the weighted in-degree deg(t) = Σ_{e → t} w(e) and the normaliser
  dinv(t) = deg(t)^(-1/2) where deg(t) > 0, else 0. One layer sends along every edge e = (s → t) the source's
  feature row times a scalar and sums what arrives at each target:
      out(t, q) = Σ_{e → t} H(s(e), q) · dinv(s(e)) · w(e) · dinv(t(e)).
  The two programs group that product differently. One multiplies the gathered row H(s(e), ·) by the edge scalar
  (dinv(s(e)) · w(e)) · dinv(t(e)); the other first scales every row of H by its node's dinv, looks the scaled
  row up (with a fill where the source word is no row number), and multiplies by w(e) · dinv(t(e)). Each
  definition below is one of those operations; the two groupings are `aggByNorm` and `aggByScaledRows`.
  A start word may be negative, counting from the end: `startCol` adds the node count to a negative word.
-/
import proofs.«403854_j52819507806473_3_alg».proof.Proof.Gen.KernelIdeal

noncomputable section

namespace Cert.Gcn

open Cert.KernelIdeal Cert.KernelIdeal.Gen Idealize.ShloMosaic

variable {F : FTy → Type} [FloatOps F]

/-! ## The edge list -/

/-- Row r (0: sources, 1: targets) of the edge table as a vector of 1600000 words. -/
def srcWords (a1 : IVec S2x1600000 32) : IVec S1600000 32 :=
  shapeCast S1600000 (extractStridedSlice S1x1600000 ![0, 0] a1 slices_S2x1600000_S1x1600000_0_0) shapeCasts_S1x1600000_S1600000
def tgtWords (a1 : IVec S2x1600000 32) : IVec S1600000 32 :=
  shapeCast S1600000 (extractStridedSlice S1x1600000 ![1, 0] a1 slices_S2x1600000_S1x1600000_1_0) shapeCasts_S1x1600000_S1600000
/-- The words of the edges followed by one self-loop word per node, 0 … 49999. -/
def withLoops (v : IVec S1600000 32) : IVec S1650000 32 :=
  concatenate S1650000 0 [⟨S1600000, v⟩, ⟨S50000, iotaInDim S50000 32 0⟩] concatenates_S1600000_S50000_S1650000_d0
/-- The edge weights followed by weight 1 for every self-loop. -/
def withUnitLoops (ew : FVec F S1600000 .f32) : FVec F S1650000 .f32 :=
  concatenate S1650000 0 [⟨S1600000, ew⟩, ⟨S50000, broadcastInDim S50000 ![] bcast_S_S50000 (constant S_ .f32 0x3F800000#32)⟩] concatenates_S1600000_S50000_S1650000_d0
/-- The start words of a row lookup as a column: a negative word counts from the end. -/
def startCol (v : IVec S1650000 32) : IVec S1650000x1 32 :=
  broadcastInDim S1650000x1 ![0] bcast_S1650000_S1650000x1_0
    (select (cmpi .slt v (broadcastInDim S1650000 ![] bcast_S_S1650000 (constantI S_ 32 0#32)))
      (addi v (broadcastInDim S1650000 ![] bcast_S_S1650000 (constantI S_ 32 50000#32))) v)

/-! ## Degrees and the normaliser -/

/-- Weighted in-degree: the weights summed at their target words. -/
def degree (cf : IVec S1650000 32) (w : FVec F S1650000 .f32) : FVec F S50000 .f32 :=
  Host.scatterAdd scatter_S50000_S1650000x1_S1650000_n_0_0_1 (broadcastInDim S50000 ![] bcast_S_S50000 (constant S_ .f32 0x00000000#32))
    (broadcastInDim S1650000x1 ![0] bcast_S1650000_S1650000x1_0 cf) w
/-- deg^(-1/2) where the degree is positive, 0 elsewhere. -/
def invSqrtDeg (cf : IVec S1650000 32) (w : FVec F S1650000 .f32) : FVec F S50000 .f32 :=
  select (cmpf .ogt (degree cf w) (broadcastInDim S50000 ![] bcast_S_S50000 (constant S_ .f32 0x00000000#32)))
    (Host.rsqrt (degree cf w)) (broadcastInDim S50000 ![] bcast_S_S50000 (constant S_ .f32 0x00000000#32))
/-- A node vector looked up at every edge's word. -/
def lookup (d : FVec F S50000 .f32) (v : IVec S1650000 32) : FVec F S1650000 .f32 :=
  Host.gather gather_S50000_S1650000x1_S1650000_n_0_n_n_0_1_1 d (startCol v)
/-- w(e) · dinv(t(e)): the edge scalar beside rows already scaled by their source's dinv. -/
def scaleByTarget (d : FVec F S50000 .f32) (cf : IVec S1650000 32) (w : FVec F S1650000 .f32) : FVec F S1650000 .f32 :=
  mulf w (lookup d cf)
/-- (dinv(s(e)) · w(e)) · dinv(t(e)): the whole symmetric normaliser of an edge. -/
def symNorm (d : FVec F S50000 .f32) (rf cf : IVec S1650000 32) (w : FVec F S1650000 .f32) : FVec F S1650000 .f32 :=
  mulf (mulf (lookup d rf) w) (lookup d cf)
/-- Which start words are row numbers 0 … 49999 (the reduction runs over the column's one entry). -/
def inRows (I : IVec S1650000x1 32) : IVec S1650000 1 :=
  Host.reduce IntOp.andi
    (andi (cmpi .sge I (broadcastInDim S1650000x1 ![] bcast_S_S1650000x1 (constantI S_ 32 0#32)))
      (cmpi .sle I (broadcastInDim S1650000x1 ![0, 1] bcast_S1x1_S1650000x1_0_1 (broadcastInDim S1x1 ![1] bcast_S1_S1x1_1 (constantI S1 32 49999#32)))))
    (constantI S_ 1 1#1) reducesTo_S1650000x1_S1650000_d1 h_S_

/-! ## One layer over 128 features -/

def spread128 (s : FVec F S1650000 .f32) : FVec F S1650000x128 .f32 :=
  broadcastInDim S1650000x128 ![0, 1] bcast_S1650000x1_S1650000x128_0_1 (broadcastInDim S1650000x1 ![0] bcast_S1650000_S1650000x1_0 s)
/-- Every row of H times its node's dinv. -/
def scaleRows128 (H : FVec F S50000x128 .f32) (d : FVec F S50000 .f32) : FVec F S50000x128 .f32 :=
  mulf H (broadcastInDim S50000x128 ![0, 1] bcast_S50000x1_S50000x128_0_1 (broadcastInDim S50000x1 ![0] bcast_S50000_S50000x1_0 d))
def rows128 (T : FVec F S50000x128 .f32) (rf : IVec S1650000 32) : FVec F S1650000x128 .f32 :=
  Host.gather gather_S50000x128_S1650000x1_S1650000x128_1_0_n_n_0_1_1128 T (startCol rf)
/-- The row lookup with a fill where the start word is no row number. -/
def rowsOrFill128 (T : FVec F S50000x128 .f32) (rf : IVec S1650000 32) : FVec F S1650000x128 .f32 :=
  select (broadcastInDim S1650000x128 ![0] bcast_S1650000_S1650000x128_0 (inRows (startCol rf))) (rows128 T rf)
    (broadcastInDim S1650000x128 ![] bcast_S_S1650000x128 (constant S_ .f32 0x7FC00000#32))
/-- The messages summed at their target words, from zero. -/
def sumAtTargets128 (cf : IVec S1650000 32) (msgs : FVec F S1650000x128 .f32) : FVec F S50000x128 .f32 :=
  Host.scatterAdd scatter_S50000x128_S1650000x1_S1650000x128_1_0_0_1 (broadcastInDim S50000x128 ![] bcast_S_S50000x128 (constant S_ .f32 0x00000000#32))
    (broadcastInDim S1650000x1 ![0] bcast_S1650000_S1650000x1_0 cf) msgs
def aggByScaledRows128 (H : FVec F S50000x128 .f32) (d : FVec F S50000 .f32) (rf cf : IVec S1650000 32) (w : FVec F S1650000 .f32) : FVec F S50000x128 .f32 :=
  sumAtTargets128 cf (mulf (rowsOrFill128 (scaleRows128 H d) rf) (spread128 (scaleByTarget d cf w)))
def aggByNorm128 (H : FVec F S50000x128 .f32) (d : FVec F S50000 .f32) (rf cf : IVec S1650000 32) (w : FVec F S1650000 .f32) : FVec F S50000x128 .f32 :=
  sumAtTargets128 cf (mulf (rows128 H rf) (spread128 (symNorm d rf cf w)))

/-! ## One layer over 40 features -/

def spread40 (s : FVec F S1650000 .f32) : FVec F S1650000x40 .f32 :=
  broadcastInDim S1650000x40 ![0, 1] bcast_S1650000x1_S1650000x40_0_1 (broadcastInDim S1650000x1 ![0] bcast_S1650000_S1650000x1_0 s)
def scaleRows40 (H : FVec F S50000x40 .f32) (d : FVec F S50000 .f32) : FVec F S50000x40 .f32 :=
  mulf H (broadcastInDim S50000x40 ![0, 1] bcast_S50000x1_S50000x40_0_1 (broadcastInDim S50000x1 ![0] bcast_S50000_S50000x1_0 d))
def rows40 (T : FVec F S50000x40 .f32) (rf : IVec S1650000 32) : FVec F S1650000x40 .f32 :=
  Host.gather gather_S50000x40_S1650000x1_S1650000x40_1_0_n_n_0_1_140 T (startCol rf)
def rowsOrFill40 (T : FVec F S50000x40 .f32) (rf : IVec S1650000 32) : FVec F S1650000x40 .f32 :=
  select (broadcastInDim S1650000x40 ![0] bcast_S1650000_S1650000x40_0 (inRows (startCol rf))) (rows40 T rf)
    (broadcastInDim S1650000x40 ![] bcast_S_S1650000x40 (constant S_ .f32 0x7FC00000#32))
def sumAtTargets40 (cf : IVec S1650000 32) (msgs : FVec F S1650000x40 .f32) : FVec F S50000x40 .f32 :=
  Host.scatterAdd scatter_S50000x40_S1650000x1_S1650000x40_1_0_0_1 (broadcastInDim S50000x40 ![] bcast_S_S50000x40 (constant S_ .f32 0x00000000#32))
    (broadcastInDim S1650000x1 ![0] bcast_S1650000_S1650000x1_0 cf) msgs
def aggByScaledRows40 (H : FVec F S50000x40 .f32) (d : FVec F S50000 .f32) (rf cf : IVec S1650000 32) (w : FVec F S1650000 .f32) : FVec F S50000x40 .f32 :=
  sumAtTargets40 cf (mulf (rowsOrFill40 (scaleRows40 H d) rf) (spread40 (scaleByTarget d cf w)))
def aggByNorm40 (H : FVec F S50000x40 .f32) (d : FVec F S50000 .f32) (rf cf : IVec S1650000 32) (w : FVec F S1650000 .f32) : FVec F S50000x40 .f32 :=
  sumAtTargets40 cf (mulf (rows40 H rf) (spread40 (symNorm d rf cf w)))
/-- The output bias, one value per class, added to every node's row. -/
def addBias40 (A : FVec F S50000x40 .f32) (b : FVec F S40 .f32) : FVec F S50000x40 .f32 :=
  addf A (broadcastInDim S50000x40 ![0, 1] bcast_S1x40_S50000x40_0_1 (broadcastInDim S1x40 ![1] bcast_S40_S1x40_1 b))

end Cert.Gcn

end
-- ==== Proof.KChain.lean ====
/-
  The kernel's result array read back through @main: from the last segment boundary down to the launch memory,
  one group of host stretches at a time. Between two regions a buffer holds either what a host operation of that
  group wrote — a named stage (Stages.lean) of what the group found — or what it held when the group began; a
  region leaves its output array at what its write-backs fold to and every other buffer as it found it.
  The call records of the looked-up rows and of the degree's select carry each value to a typed buffer and back:
  those transports are identities (the buffer's type IS the value's), removed first.
-/
import proofs.«403854_j52819507806473_3_alg».proof.Proof.Gen.KernelIdeal.Frame
import proofs.«403854_j52819507806473_3_alg».proof.Proof.Stages

noncomputable section

namespace Cert.Gcn.Chain

open Cert.KernelIdeal Cert.KernelIdeal.Gen Cert.Gcn Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Transports to a typed buffer and back -/

/-- Contents carried to a typed reference's buffer and read back are the contents. -/
theorem ofBuf_toBuf {sg : RefSig} {T : BufTy} {Val : EltTy → Type} (x : TRef sg T) (v : T.Contents Val) : x.ofBuf (x.toBuf v) = v := by
  obtain ⟨r, h, h2, h3⟩ := x
  subst h
  rfl

theorem toBuf_v45 (v : FVec F S1650000x40 .f32) : (TRef.of main_v45 : TRef sig ⟨S1650000x40, .f32⟩).toBuf (Val := Elt F) v = v := rfl
theorem ofBuf_v44 (v : FVec F S50000x40 .f32) : (TRef.of main_v44 : TRef sig ⟨S50000x40, .f32⟩).ofBuf (Val := Elt F) v = v := rfl
theorem ofBuf_v9 (v : IVec S1650000 32) : (TRef.of main_v9 : TRef sig ⟨S1650000, .i32⟩).ofBuf (Val := Elt F) v = v := rfl
theorem toBuf_v33 (v : FVec F S1650000x128 .f32) : (TRef.of main_v33 : TRef sig ⟨S1650000x128, .f32⟩).toBuf (Val := Elt F) v = v := rfl
theorem ofBuf_v32 (v : FVec F S50000x128 .f32) : (TRef.of main_v32 : TRef sig ⟨S50000x128, .f32⟩).ofBuf (Val := Elt F) v = v := rfl
theorem toBuf_v20 (v : FVec F S50000 .f32) : (TRef.of main_v20 : TRef sig ⟨S50000, .f32⟩).toBuf (Val := Elt F) v = v := rfl
theorem ofBuf_v17 (v : IVec S50000 1) : (TRef.of main_v17 : TRef sig ⟨S50000, .i1⟩).ofBuf (Val := Elt F) v = v := rfl
theorem ofBuf_v18 (v : FVec F S50000 .f32) : (TRef.of main_v18 : TRef sig ⟨S50000, .f32⟩).ofBuf (Val := Elt F) v = v := rfl
theorem ofBuf_v19 (v : FVec F S50000 .f32) : (TRef.of main_v19 : TRef sig ⟨S50000, .f32⟩).ofBuf (Val := Elt F) v = v := rfl

/-! ## After the last region: the second layer's sum and the output bias -/

theorem out_of_W10 (c : Dev nD) : W13 m ρ c (Proc.devRef .tc main_v54) =
    addBias40 (sumAtTargets40 (W10 m ρ c (Proc.devRef .tc main_v10)) (mulf (rowsOrFill40 (scaleRows40 (W10 m ρ c (Proc.devRef .tc main_v41)) (W10 m ρ c (Proc.devRef .tc main_v20))) (W10 m ρ c (Proc.devRef .tc main_v9))) (spread40 (W10 m ρ c (Proc.devRef .tc main_v28)))))
      (W10 m ρ c (Proc.devRef .tc main_arg10)) := by
  dsimp only [W13, W12, W11, hostOps3_2, hostOps3_1, hostOps3]
  after_results_simp
  try simp only [ofBuf_toBuf, toBuf_v45, ofBuf_v44, ofBuf_v9, toBuf_v33, ofBuf_v32, toBuf_v20, ofBuf_v17, ofBuf_v18, ofBuf_v19]
  try rfl

/-! ## Between the second and the third region: the first layer's sum, and the bias as a row -/

theorem agg1_of_W6 (c : Dev nD) : W9 m ρ c (Proc.devRef .tc main_v39) =
    sumAtTargets128 (W6 m ρ c (Proc.devRef .tc main_v10)) (mulf (rowsOrFill128 (scaleRows128 (W6 m ρ c (Proc.devRef .tc main_v29)) (W6 m ρ c (Proc.devRef .tc main_v20))) (W6 m ρ c (Proc.devRef .tc main_v9))) (spread128 (W6 m ρ c (Proc.devRef .tc main_v28)))) := by
  dsimp only [W9, W8, W7, hostOps2_2, hostOps2_1, hostOps2]
  after_results_simp
  try simp only [ofBuf_toBuf, toBuf_v45, ofBuf_v44, ofBuf_v9, toBuf_v33, ofBuf_v32, toBuf_v20, ofBuf_v17, ofBuf_v18, ofBuf_v19]
  try rfl
theorem biasRow_of_W6 (c : Dev nD) : W9 m ρ c (Proc.devRef .tc main_v40) = shapeCast S1x128 (W6 m ρ c (Proc.devRef .tc main_arg8)) shapeCasts_S128_S1x128 := by
  dsimp only [W9, W8, W7, hostOps2_2, hostOps2_1, hostOps2]
  after_results_simp
  try simp only [ofBuf_toBuf, toBuf_v45, ofBuf_v44, ofBuf_v9, toBuf_v33, ofBuf_v32, toBuf_v20, ofBuf_v17, ofBuf_v18, ofBuf_v19]
  try rfl
theorem W9_arg9 (c : Dev nD) : W9 m ρ c (Proc.devRef .tc main_arg9) = W6 m ρ c (Proc.devRef .tc main_arg9) := by
  dsimp only [W9, W8, W7, hostOps2_2, hostOps2_1, hostOps2]
  after_results_simp
  try simp only [ofBuf_toBuf, toBuf_v45, ofBuf_v44, ofBuf_v9, toBuf_v33, ofBuf_v32, toBuf_v20, ofBuf_v17, ofBuf_v18, ofBuf_v19]
  try rfl
theorem W9_v10 (c : Dev nD) : W9 m ρ c (Proc.devRef .tc main_v10) = W6 m ρ c (Proc.devRef .tc main_v10) := by
  dsimp only [W9, W8, W7, hostOps2_2, hostOps2_1, hostOps2]
  after_results_simp
  try simp only [ofBuf_toBuf, toBuf_v45, ofBuf_v44, ofBuf_v9, toBuf_v33, ofBuf_v32, toBuf_v20, ofBuf_v17, ofBuf_v18, ofBuf_v19]
  try rfl
theorem W9_v20 (c : Dev nD) : W9 m ρ c (Proc.devRef .tc main_v20) = W6 m ρ c (Proc.devRef .tc main_v20) := by
  dsimp only [W9, W8, W7, hostOps2_2, hostOps2_1, hostOps2]
  after_results_simp
  try simp only [ofBuf_toBuf, toBuf_v45, ofBuf_v44, ofBuf_v9, toBuf_v33, ofBuf_v32, toBuf_v20, ofBuf_v17, ofBuf_v18, ofBuf_v19]
  try rfl
theorem W9_v9 (c : Dev nD) : W9 m ρ c (Proc.devRef .tc main_v9) = W6 m ρ c (Proc.devRef .tc main_v9) := by
  dsimp only [W9, W8, W7, hostOps2_2, hostOps2_1, hostOps2]
  after_results_simp
  try simp only [ofBuf_toBuf, toBuf_v45, ofBuf_v44, ofBuf_v9, toBuf_v33, ofBuf_v32, toBuf_v20, ofBuf_v17, ofBuf_v18, ofBuf_v19]
  try rfl
theorem W9_v28 (c : Dev nD) : W9 m ρ c (Proc.devRef .tc main_v28) = W6 m ρ c (Proc.devRef .tc main_v28) := by
  dsimp only [W9, W8, W7, hostOps2_2, hostOps2_1, hostOps2]
  after_results_simp
  try simp only [ofBuf_toBuf, toBuf_v45, ofBuf_v44, ofBuf_v9, toBuf_v33, ofBuf_v32, toBuf_v20, ofBuf_v17, ofBuf_v18, ofBuf_v19]
  try rfl
theorem W9_arg10 (c : Dev nD) : W9 m ρ c (Proc.devRef .tc main_arg10) = W6 m ρ c (Proc.devRef .tc main_arg10) := by
  dsimp only [W9, W8, W7, hostOps2_2, hostOps2_1, hostOps2]
  after_results_simp
  try simp only [ofBuf_toBuf, toBuf_v45, ofBuf_v44, ofBuf_v9, toBuf_v33, ofBuf_v32, toBuf_v20, ofBuf_v17, ofBuf_v18, ofBuf_v19]
  try rfl

/-! ## Between the first and the second region: the edge list with self-loops, the degrees, the edge scalar -/

theorem srcLoops_of_W2 (c : Dev nD) : W5 m ρ c (Proc.devRef .tc main_v9) = withLoops (W2 m ρ c (Proc.devRef .tc main_v1)) := by
  dsimp only [W5, W4, W3, hostOps1_2, hostOps1_1, hostOps1]
  after_results_simp
  try simp only [ofBuf_toBuf, toBuf_v45, ofBuf_v44, ofBuf_v9, toBuf_v33, ofBuf_v32, toBuf_v20, ofBuf_v17, ofBuf_v18, ofBuf_v19]
  try rfl
theorem tgtLoops_of_W2 (c : Dev nD) : W5 m ρ c (Proc.devRef .tc main_v10) = withLoops (W2 m ρ c (Proc.devRef .tc main_v3)) := by
  dsimp only [W5, W4, W3, hostOps1_2, hostOps1_1, hostOps1]
  after_results_simp
  try simp only [ofBuf_toBuf, toBuf_v45, ofBuf_v44, ofBuf_v9, toBuf_v33, ofBuf_v32, toBuf_v20, ofBuf_v17, ofBuf_v18, ofBuf_v19]
  try rfl
theorem dinv_of_W2 (c : Dev nD) : W5 m ρ c (Proc.devRef .tc main_v20) =
    invSqrtDeg (withLoops (W2 m ρ c (Proc.devRef .tc main_v3))) (withUnitLoops (shapeCast S1600000 (W2 m ρ c (Proc.devRef .tc main_v6)) shapeCasts_S1600000x1_S1600000)) := by
  dsimp only [W5, W4, W3, hostOps1_2, hostOps1_1, hostOps1]
  after_results_simp
  try simp only [ofBuf_toBuf, toBuf_v45, ofBuf_v44, ofBuf_v9, toBuf_v33, ofBuf_v32, toBuf_v20, ofBuf_v17, ofBuf_v18, ofBuf_v19]
  try rfl
theorem edgeScalar_of_W2 (c : Dev nD) : W5 m ρ c (Proc.devRef .tc main_v28) =
    scaleByTarget (invSqrtDeg (withLoops (W2 m ρ c (Proc.devRef .tc main_v3))) (withUnitLoops (shapeCast S1600000 (W2 m ρ c (Proc.devRef .tc main_v6)) shapeCasts_S1600000x1_S1600000)))
      (withLoops (W2 m ρ c (Proc.devRef .tc main_v3))) (withUnitLoops (shapeCast S1600000 (W2 m ρ c (Proc.devRef .tc main_v6)) shapeCasts_S1600000x1_S1600000)) := by
  dsimp only [W5, W4, W3, hostOps1_2, hostOps1_1, hostOps1]
  after_results_simp
  try simp only [ofBuf_toBuf, toBuf_v45, ofBuf_v44, ofBuf_v9, toBuf_v33, ofBuf_v32, toBuf_v20, ofBuf_v17, ofBuf_v18, ofBuf_v19]
  try rfl
theorem W5_arg0 (c : Dev nD) : W5 m ρ c (Proc.devRef .tc main_arg0) = W2 m ρ c (Proc.devRef .tc main_arg0) := by
  dsimp only [W5, W4, W3, hostOps1_2, hostOps1_1, hostOps1]
  after_results_simp
  try simp only [ofBuf_toBuf, toBuf_v45, ofBuf_v44, ofBuf_v9, toBuf_v33, ofBuf_v32, toBuf_v20, ofBuf_v17, ofBuf_v18, ofBuf_v19]
  try rfl
theorem W5_arg7 (c : Dev nD) : W5 m ρ c (Proc.devRef .tc main_arg7) = W2 m ρ c (Proc.devRef .tc main_arg7) := by
  dsimp only [W5, W4, W3, hostOps1_2, hostOps1_1, hostOps1]
  after_results_simp
  try simp only [ofBuf_toBuf, toBuf_v45, ofBuf_v44, ofBuf_v9, toBuf_v33, ofBuf_v32, toBuf_v20, ofBuf_v17, ofBuf_v18, ofBuf_v19]
  try rfl
theorem W5_arg8 (c : Dev nD) : W5 m ρ c (Proc.devRef .tc main_arg8) = W2 m ρ c (Proc.devRef .tc main_arg8) := by
  dsimp only [W5, W4, W3, hostOps1_2, hostOps1_1, hostOps1]
  after_results_simp
  try simp only [ofBuf_toBuf, toBuf_v45, ofBuf_v44, ofBuf_v9, toBuf_v33, ofBuf_v32, toBuf_v20, ofBuf_v17, ofBuf_v18, ofBuf_v19]
  try rfl
theorem W5_arg9 (c : Dev nD) : W5 m ρ c (Proc.devRef .tc main_arg9) = W2 m ρ c (Proc.devRef .tc main_arg9) := by
  dsimp only [W5, W4, W3, hostOps1_2, hostOps1_1, hostOps1]
  after_results_simp
  try simp only [ofBuf_toBuf, toBuf_v45, ofBuf_v44, ofBuf_v9, toBuf_v33, ofBuf_v32, toBuf_v20, ofBuf_v17, ofBuf_v18, ofBuf_v19]
  try rfl
theorem W5_arg10 (c : Dev nD) : W5 m ρ c (Proc.devRef .tc main_arg10) = W2 m ρ c (Proc.devRef .tc main_arg10) := by
  dsimp only [W5, W4, W3, hostOps1_2, hostOps1_1, hostOps1]
  after_results_simp
  try simp only [ofBuf_toBuf, toBuf_v45, ofBuf_v44, ofBuf_v9, toBuf_v33, ofBuf_v32, toBuf_v20, ofBuf_v17, ofBuf_v18, ofBuf_v19]
  try rfl

/-! ## Before the first region: the two rows of the edge table and the two biases as rows -/

theorem src_of_launch (c : Dev nD) : W1 m ρ c (Proc.devRef .tc main_v1) = srcWords (m ((c : Thread nD τ).loc main_arg1)) := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem tgt_of_launch (c : Dev nD) : W1 m ρ c (Proc.devRef .tc main_v3) = tgtWords (m ((c : Thread nD τ).loc main_arg1)) := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem bias1Row_of_launch (c : Dev nD) : W1 m ρ c (Proc.devRef .tc main_v4) = shapeCast S1x32 (m ((c : Thread nD τ).loc main_arg4)) shapeCasts_S32_S1x32 := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem bias2Row_of_launch (c : Dev nD) : W1 m ρ c (Proc.devRef .tc main_v5) = shapeCast S1x1 (m ((c : Thread nD τ).loc main_arg6)) shapeCasts_S1_S1x1 := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem W1_arg0 (c : Dev nD) : W1 m ρ c (Proc.devRef .tc main_arg0) = m ((c : Thread nD τ).loc main_arg0) := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem W1_arg2 (c : Dev nD) : W1 m ρ c (Proc.devRef .tc main_arg2) = m ((c : Thread nD τ).loc main_arg2) := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem W1_arg3 (c : Dev nD) : W1 m ρ c (Proc.devRef .tc main_arg3) = m ((c : Thread nD τ).loc main_arg3) := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem W1_arg5 (c : Dev nD) : W1 m ρ c (Proc.devRef .tc main_arg5) = m ((c : Thread nD τ).loc main_arg5) := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem W1_arg7 (c : Dev nD) : W1 m ρ c (Proc.devRef .tc main_arg7) = m ((c : Thread nD τ).loc main_arg7) := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem W1_arg8 (c : Dev nD) : W1 m ρ c (Proc.devRef .tc main_arg8) = m ((c : Thread nD τ).loc main_arg8) := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem W1_arg9 (c : Dev nD) : W1 m ρ c (Proc.devRef .tc main_arg9) = m ((c : Thread nD τ).loc main_arg9) := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl
theorem W1_arg10 (c : Dev nD) : W1 m ρ c (Proc.devRef .tc main_arg10) = m ((c : Thread nD τ).loc main_arg10) := by
  dsimp only [W1, hostOps0]
  after_results_simp
  try simp only [ofBuf_toBuf, toBuf_v45, ofBuf_v44, ofBuf_v9, toBuf_v33, ofBuf_v32, toBuf_v20, ofBuf_v17, ofBuf_v18, ofBuf_v19]
  try rfl

end Cert.Gcn.Chain

end
-- ==== Proof.EdgeSpec.lean ====
/-
  The edge perceptron of the graph convolution, as one function of its five arrays.

  Every edge `e` carries a feature row of sixteen numbers. A hidden layer of thirty-two rectified units reads the row:
  unit `k` is the larger of zero and the row times column `k` of the first weight matrix plus the first bias at `k`.
  The edge's score is the hidden layer times the second weight column plus the second bias, and the edge's weight is the
  logistic function `1 / (1 + e^(-s))` of that score. The weight of edge `e` depends on row `e` of the feature array only,
  which is why the array of weights can be computed block of rows by block of rows.
-/
import Idealize.ShloMosaic.PureOps.Ideal
import Idealize.ShloMosaic.Lib.ValueIdx

noncomputable section

namespace Cert.Gcn.Edge

open Idealize.ShloMosaic Idealize.ShloMosaic.ValueIdx
open scoped BigOperators

/-- Hidden unit `k` on one feature row: the larger of zero and the row times column `k` of the first weight matrix plus
    the first bias at `k`. -/
def hiddenUnit (row : Fin 16 → EReal) (w1 : Vec Ideal ⟨2, ![16, 32]⟩ .f32) (b1 : Vec Ideal ⟨2, ![1, 32]⟩ .f32)
    (k : Fin 32) : EReal :=
  max ((∑ j : Fin 16, row j * w1 (ix2 j k)) + b1 (ix2 0 k)) 0

/-- The score of one feature row: the hidden layer times the second weight column, plus the second bias. -/
def edgeScore (row : Fin 16 → EReal) (w1 : Vec Ideal ⟨2, ![16, 32]⟩ .f32) (b1 : Vec Ideal ⟨2, ![1, 32]⟩ .f32)
    (w2 : Vec Ideal ⟨2, ![32, 1]⟩ .f32) (b2 : Vec Ideal ⟨2, ![1, 1]⟩ .f32) : EReal :=
  (∑ k : Fin 32, hiddenUnit row w1 b1 k * w2 (ix2 k 0)) + b2 (ix2 0 0)

/-- The weight of one feature row: the logistic function of its score. -/
def rowWeight (row : Fin 16 → EReal) (w1 : Vec Ideal ⟨2, ![16, 32]⟩ .f32) (b1 : Vec Ideal ⟨2, ![1, 32]⟩ .f32)
    (w2 : Vec Ideal ⟨2, ![32, 1]⟩ .f32) (b2 : Vec Ideal ⟨2, ![1, 1]⟩ .f32) : EReal :=
  Ideal.logistic (edgeScore row w1 b1 w2 b2)

/-- The column of edge weights: entry `(e, 0)` is the weight of row `e` of the feature array. -/
def edgeWeight (ex : Vec Ideal ⟨2, ![1600000, 16]⟩ .f32) (w1 : Vec Ideal ⟨2, ![16, 32]⟩ .f32)
    (b1 : Vec Ideal ⟨2, ![1, 32]⟩ .f32) (w2 : Vec Ideal ⟨2, ![32, 1]⟩ .f32) (b2 : Vec Ideal ⟨2, ![1, 1]⟩ .f32) :
    Vec Ideal ⟨2, ![1600000, 1]⟩ .f32 :=
  fun i => rowWeight (fun j => ex (ix2 (i 0) j)) w1 b1 w2 b2

/-- The column read at edge `e`. -/
theorem edgeWeight_apply (ex : Vec Ideal ⟨2, ![1600000, 16]⟩ .f32) (w1 : Vec Ideal ⟨2, ![16, 32]⟩ .f32)
    (b1 : Vec Ideal ⟨2, ![1, 32]⟩ .f32) (w2 : Vec Ideal ⟨2, ![32, 1]⟩ .f32) (b2 : Vec Ideal ⟨2, ![1, 1]⟩ .f32)
    (e : Fin 1600000) (z : Fin 1) :
    edgeWeight ex w1 b1 w2 b2 (ix2 e z) = rowWeight (fun j => ex (ix2 e j)) w1 b1 w2 b2 := rfl

/-- The weight of a row spelt out: one over one plus the exponential of minus the score. -/
theorem rowWeight_eq (row : Fin 16 → EReal) (w1 : Vec Ideal ⟨2, ![16, 32]⟩ .f32) (b1 : Vec Ideal ⟨2, ![1, 32]⟩ .f32)
    (w2 : Vec Ideal ⟨2, ![32, 1]⟩ .f32) (b2 : Vec Ideal ⟨2, ![1, 1]⟩ .f32) :
    rowWeight row w1 b1 w2 b2
      = Ideal.div 1 (1 + Ideal.exp (-((∑ k : Fin 32,
          max ((∑ j : Fin 16, row j * w1 (ix2 j k)) + b1 (ix2 0 k)) 0 * w2 (ix2 k 0)) + b2 (ix2 0 0)))) := rfl

end Cert.Gcn.Edge

end
-- ==== Proof.EdgeKernel.lean ====
/-
  Region 0 of the graph convolution: the edge perceptron's output array is the column of edge weights.

  The region runs over a grid of a hundred points; at each point its body reads a block of sixteen thousand feature rows
  and the whole of the two weight matrices and the two bias rows, and stores one value over the whole output block: the
  logistic function of the rectified first layer times the second weight column plus the second bias. Read at a row of the
  block, that value is the weight of that feature row (the two contractions read as finite sums, the bias rows broadcast
  along the rows). Point `t`'s block is rows `16000 t … 16000 t + 15999`, so what it writes back is block `t` of the column
  of edge weights of the whole arrays, and the hundred blocks cover every row.
-/
import proofs.«403854_j52819507806473_3_alg».proof.Proof.Gen.KernelIdeal.Frame
import proofs.«403854_j52819507806473_3_alg».proof.Proof.EdgeSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Edge

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The body's two contractions read at an index

Each is a product of a block of rows with a whole matrix into a zero accumulator, contracting the left operand's columns
with the right operand's rows: at `(p, k)` it is the sum over the contracted coordinate `j` of left `(p, j)` times right
`(j, k)`. The four coordinate facts per contraction say which coordinate of an operand's index is the output's and which
the contracted one. -/

theorem lhs_hid_0 (i : S16000x32.Idx) (q : dot_S16000x16_S16x32_S16000x32_1_0_0_1_n_n.contr.Idx) :
    (dot_S16000x16_S16x32_S16000x32_1_0_0_1_n_n.lhsIdx i q 0).val = (i 0).val := by
  unfold DotDims.lhsIdx
  rw [dif_neg (show ¬(0 : Fin S16000x16.rank) ∈ dot_S16000x16_S16x32_S16000x32_1_0_0_1_n_n.lhsBatch by decide), dif_pos (show (0 : Fin S16000x16.rank) ∈ dot_S16000x16_S16x32_S16000x32_1_0_0_1_n_n.lhsNonContracting by decide)]
  rfl
theorem lhs_hid_1 (i : S16000x32.Idx) (q : dot_S16000x16_S16x32_S16000x32_1_0_0_1_n_n.contr.Idx) :
    (dot_S16000x16_S16x32_S16000x32_1_0_0_1_n_n.lhsIdx i q 1).val = (q ⟨0, by decide⟩).val :=
  dot_S16000x16_S16x32_S16000x32_1_0_0_1_n_n.lhsIdx_val_of_single rfl i q
theorem rhs_hid_0 (i : S16000x32.Idx) (q : dot_S16000x16_S16x32_S16000x32_1_0_0_1_n_n.contr.Idx) :
    (dot_S16000x16_S16x32_S16000x32_1_0_0_1_n_n.rhsIdx i q 0).val = (q ⟨0, by decide⟩).val :=
  dot_S16000x16_S16x32_S16000x32_1_0_0_1_n_n.rhsIdx_val_of_single rfl i q
theorem rhs_hid_1 (i : S16000x32.Idx) (q : dot_S16000x16_S16x32_S16000x32_1_0_0_1_n_n.contr.Idx) :
    (dot_S16000x16_S16x32_S16000x32_1_0_0_1_n_n.rhsIdx i q 1).val = (i 1).val := by
  unfold DotDims.rhsIdx
  rw [dif_neg (show ¬(1 : Fin S16x32.rank) ∈ dot_S16000x16_S16x32_S16000x32_1_0_0_1_n_n.rhsBatch by decide), dif_pos (show (1 : Fin S16x32.rank) ∈ dot_S16000x16_S16x32_S16000x32_1_0_0_1_n_n.rhsNonContracting by decide)]
  rfl

/-- The first contraction, feature rows times the first weight matrix, at `(p, k)`. -/
theorem matmul_hid_apply (x : FVec Ideal S16000x16 .f32) (w : FVec Ideal S16x32 .f32) (p : Fin 16000) (k : Fin 32) :
    matmul dot_S16000x16_S16x32_S16000x32_1_0_0_1_n_n none x w (constant S16000x32 .f32 0x00000000#32) (ix2 p k)
      = ∑ j : Fin 16, x (ix2 p j) * w (ix2 j k) := by
  simp only [matmul]
  rw [Ideal.matmul_constant_zero_apply, ← Equiv.sum_comp (contrEquiv1 dot_S16000x16_S16x32_S16000x32_1_0_0_1_n_n 16 rfl rfl).symm]
  refine Finset.sum_congr rfl fun j _ => ?_
  have hj := contrEquiv1_symm_val dot_S16000x16_S16x32_S16000x32_1_0_0_1_n_n 16 rfl rfl j
  have el : dot_S16000x16_S16x32_S16000x32_1_0_0_1_n_n.lhsIdx (ix2 p k) ((contrEquiv1 dot_S16000x16_S16x32_S16000x32_1_0_0_1_n_n 16 rfl rfl).symm j) = ix2 p j := funext fun a => Fin.ext (by
    match a with
    | ⟨0, _⟩ => exact lhs_hid_0 _ _
    | ⟨1, _⟩ => exact (lhs_hid_1 _ _).trans hj)
  have er : dot_S16000x16_S16x32_S16000x32_1_0_0_1_n_n.rhsIdx (ix2 p k) ((contrEquiv1 dot_S16000x16_S16x32_S16000x32_1_0_0_1_n_n 16 rfl rfl).symm j) = ix2 j k := funext fun a => Fin.ext (by
    match a with
    | ⟨0, _⟩ => exact (rhs_hid_0 _ _).trans hj
    | ⟨1, _⟩ => exact rhs_hid_1 _ _)
  rw [el, er]

theorem lhs_out_0 (i : S16000x1.Idx) (q : dot_S16000x32_S32x1_S16000x1_1_0_0_1_n_n.contr.Idx) :
    (dot_S16000x32_S32x1_S16000x1_1_0_0_1_n_n.lhsIdx i q 0).val = (i 0).val := by
  unfold DotDims.lhsIdx
  rw [dif_neg (show ¬(0 : Fin S16000x32.rank) ∈ dot_S16000x32_S32x1_S16000x1_1_0_0_1_n_n.lhsBatch by decide), dif_pos (show (0 : Fin S16000x32.rank) ∈ dot_S16000x32_S32x1_S16000x1_1_0_0_1_n_n.lhsNonContracting by decide)]
  rfl
theorem lhs_out_1 (i : S16000x1.Idx) (q : dot_S16000x32_S32x1_S16000x1_1_0_0_1_n_n.contr.Idx) :
    (dot_S16000x32_S32x1_S16000x1_1_0_0_1_n_n.lhsIdx i q 1).val = (q ⟨0, by decide⟩).val :=
  dot_S16000x32_S32x1_S16000x1_1_0_0_1_n_n.lhsIdx_val_of_single rfl i q
theorem rhs_out_0 (i : S16000x1.Idx) (q : dot_S16000x32_S32x1_S16000x1_1_0_0_1_n_n.contr.Idx) :
    (dot_S16000x32_S32x1_S16000x1_1_0_0_1_n_n.rhsIdx i q 0).val = (q ⟨0, by decide⟩).val :=
  dot_S16000x32_S32x1_S16000x1_1_0_0_1_n_n.rhsIdx_val_of_single rfl i q
theorem rhs_out_1 (i : S16000x1.Idx) (q : dot_S16000x32_S32x1_S16000x1_1_0_0_1_n_n.contr.Idx) :
    (dot_S16000x32_S32x1_S16000x1_1_0_0_1_n_n.rhsIdx i q 1).val = (i 1).val := by
  unfold DotDims.rhsIdx
  rw [dif_neg (show ¬(1 : Fin S32x1.rank) ∈ dot_S16000x32_S32x1_S16000x1_1_0_0_1_n_n.rhsBatch by decide), dif_pos (show (1 : Fin S32x1.rank) ∈ dot_S16000x32_S32x1_S16000x1_1_0_0_1_n_n.rhsNonContracting by decide)]
  rfl

/-- The second contraction, the hidden layer times the second weight column, at `(p, z)`. -/
theorem matmul_out_apply (h : FVec Ideal S16000x32 .f32) (w : FVec Ideal S32x1 .f32) (p : Fin 16000) (z : Fin 1) :
    matmul dot_S16000x32_S32x1_S16000x1_1_0_0_1_n_n none h w (constant S16000x1 .f32 0x00000000#32) (ix2 p z)
      = ∑ k : Fin 32, h (ix2 p k) * w (ix2 k z) := by
  simp only [matmul]
  rw [Ideal.matmul_constant_zero_apply, ← Equiv.sum_comp (contrEquiv1 dot_S16000x32_S32x1_S16000x1_1_0_0_1_n_n 32 rfl rfl).symm]
  refine Finset.sum_congr rfl fun k _ => ?_
  have hk := contrEquiv1_symm_val dot_S16000x32_S32x1_S16000x1_1_0_0_1_n_n 32 rfl rfl k
  have el : dot_S16000x32_S32x1_S16000x1_1_0_0_1_n_n.lhsIdx (ix2 p z) ((contrEquiv1 dot_S16000x32_S32x1_S16000x1_1_0_0_1_n_n 32 rfl rfl).symm k) = ix2 p k := funext fun a => Fin.ext (by
    match a with
    | ⟨0, _⟩ => exact lhs_out_0 _ _
    | ⟨1, _⟩ => exact (lhs_out_1 _ _).trans hk)
  have er : dot_S16000x32_S32x1_S16000x1_1_0_0_1_n_n.rhsIdx (ix2 p z) ((contrEquiv1 dot_S16000x32_S32x1_S16000x1_1_0_0_1_n_n 32 rfl rfl).symm k) = ix2 k z := funext fun a => Fin.ext (by
    match a with
    | ⟨0, _⟩ => exact (rhs_out_0 _ _).trans hk
    | ⟨1, _⟩ => exact rhs_out_1 _ _)
  rw [el, er]

/-! ## The body's arithmetic at an index

The body's one stored value, read at row `p` of the block, is the weight of row `p` of the block of features. -/

/-- The logistic function of a vector, read at an index. -/
theorem logistic_apply {s : Shape} (a : FVec Ideal s .f32) (i : s.Idx) : logistic a i = Ideal.logistic (a i) := rfl

/-- The hidden layer of the body at `(p, k)`: hidden unit `k` on row `p` of the block. -/
theorem hidden_apply (x0 : FVec Ideal S16000x16 .f32) (x1 : FVec Ideal S16x32 .f32) (x2 : FVec Ideal S1x32 .f32)
    (p : Fin 16000) (k : Fin 32) :
    maximumf (addf (matmul dot_S16000x16_S16x32_S16000x32_1_0_0_1_n_n none x0 x1 (constant S16000x32 .f32 0x00000000#32))
        (broadcastTo S16000x32 (shapeCast S1x32 x2 shapeCasts_S1x32_S1x32) broadcasts_S1x32_S16000x32))
      (broadcast S16000x32 (Scalar.ofBits (F := Ideal) .f32 0x00000000#32)) (ix2 p k)
      = hiddenUnit (fun j => x0 (ix2 p j)) x1 x2 k := by
  rw [maximumf_apply, addf_apply, broadcast_apply, matmul_hid_apply, shapeCast_self, broadcastTo_1b_ab_apply]
  show max _ (Ideal.ofBits .f32 0x00000000#32) = _
  rw [Ideal.ofBits_zero_f32]
  rfl

/-- The body's stored value at `(p, z)`. -/
theorem payload_apply (x0 : Vec Ideal S16000x16 .f32) (x1 : Vec Ideal S16x32 .f32) (x2 : Vec Ideal S1x32 .f32)
    (x3 : Vec Ideal S32x1 .f32) (x4 : Vec Ideal S1x1 .f32) (p : Fin 16000) (z : Fin 1) :
    k0_pay1 (F := Ideal) x0 x1 x2 x3 x4 (ix2 p z) = rowWeight (fun j => x0 (ix2 p j)) x1 x2 x3 x4 := by
  obtain rfl : z = 0 := Subsingleton.elim _ _
  unfold k0_pay1
  rw [logistic_apply, addf_apply, matmul_out_apply, broadcastTo_1b_ab_apply]
  unfold rowWeight edgeScore
  refine congrArg Ideal.logistic (congr (congrArg HAdd.hAdd (Finset.sum_congr rfl fun k _ => ?_)) ?_)
  · rw [hidden_apply]
  · rw [shapeCast_self]

/-! ## From blocks to the array

The grid has a hundred points. At point `t` the feature window and the output window stand at block `(t, 0)`, rows
`16000 t … 16000 t + 15999`; the two weight matrices and the two bias rows are whole arrays, always at block `(0, 0)`.
So what point `t` writes back is block `t` of the column of edge weights of the arrays as the region finds them, and the
hundred blocks tile the `1600000` rows: row `e` lies in block `e / 16000`. -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every point of the grid, decided over the hundred points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the feature block at point `t` is row `16000 t + p` of the feature array. -/
theorem feature_block_apply (c : Dev nD) (t : Fin cfg0.N) (p : Fin 16000) (j : Fin 16) (e : Fin 1600000)
    (he : e.val = 16000 * t.val + p.val) :
    (iblk0 V c 0 t : Vec Ideal S16000x16 .f32) (ix2 p j) = (V c main_arg2 : Vec Ideal S1600000x16 .f32) (ix2 e j) := by
  obtain ⟨h0, h1, -⟩ := block_indices t
  unfold iblk0
  rw [View.read_apply]
  show V c main_arg2 _ = V c main_arg2 _
  congr 1
  funext a; apply Fin.ext
  match a with
  | ⟨0, _⟩ => show win0_0.index t (0 : Fin 2) * 16000 + 1 * p.val = e.val; rw [h0, he]; omega
  | ⟨1, _⟩ => show win0_0.index t (1 : Fin 2) * 16 + 1 * j.val = j.val; rw [h1]; omega

/-- The first weight matrix's block at any point is the whole matrix. -/
theorem weight1_block (c : Dev nD) (t : Fin cfg0.N) :
    (iblk0 V c 1 t : Vec Ideal S16x32 .f32) = (V c main_arg3 : Vec Ideal S16x32 .f32) := by
  obtain ⟨-, -, h0, h1, -⟩ := block_indices t
  funext y
  unfold iblk0
  rw [View.read_apply]
  show V c main_arg3 _ = V c main_arg3 y
  congr 1
  funext a; apply Fin.ext
  match a with
  | ⟨0, _⟩ => show win0_1.index t (0 : Fin 2) * 16 + 1 * (y 0).val = (y 0).val; rw [h0]; omega
  | ⟨1, _⟩ => show win0_1.index t (1 : Fin 2) * 32 + 1 * (y 1).val = (y 1).val; rw [h1]; omega

/-- The first bias row's block at any point is the whole row. -/
theorem bias1_block (c : Dev nD) (t : Fin cfg0.N) :
    (iblk0 V c 2 t : Vec Ideal S1x32 .f32) = (V c main_v4 : Vec Ideal S1x32 .f32) := by
  obtain ⟨-, -, -, -, h0, h1, -⟩ := block_indices t
  funext y
  unfold iblk0
  rw [View.read_apply]
  show V c main_v4 _ = V c main_v4 y
  congr 1
  funext a; apply Fin.ext
  match a with
  | ⟨0, _⟩ => show win0_2.index t (0 : Fin 2) * 1 + 1 * (y 0).val = (y 0).val; rw [h0]; omega
  | ⟨1, _⟩ => show win0_2.index t (1 : Fin 2) * 32 + 1 * (y 1).val = (y 1).val; rw [h1]; omega

/-- The second weight column's block at any point is the whole column. -/
theorem weight2_block (c : Dev nD) (t : Fin cfg0.N) :
    (iblk0 V c 3 t : Vec Ideal S32x1 .f32) = (V c main_arg5 : Vec Ideal S32x1 .f32) := by
  obtain ⟨-, -, -, -, -, -, h0, h1, -⟩ := block_indices t
  funext y
  unfold iblk0
  rw [View.read_apply]
  show V c main_arg5 _ = V c main_arg5 y
  congr 1
  funext a; apply Fin.ext
  match a with
  | ⟨0, _⟩ => show win0_3.index t (0 : Fin 2) * 32 + 1 * (y 0).val = (y 0).val; rw [h0]; omega
  | ⟨1, _⟩ => show win0_3.index t (1 : Fin 2) * 1 + 1 * (y 1).val = (y 1).val; rw [h1]; omega

/-- The second bias's block at any point is the whole one-entry array. -/
theorem bias2_block (c : Dev nD) (t : Fin cfg0.N) :
    (iblk0 V c 4 t : Vec Ideal S1x1 .f32) = (V c main_v5 : Vec Ideal S1x1 .f32) := by
  obtain ⟨-, -, -, -, -, -, -, -, h0, h1, -⟩ := block_indices t
  funext y
  unfold iblk0
  rw [View.read_apply]
  show V c main_v5 _ = V c main_v5 y
  congr 1
  funext a; apply Fin.ext
  match a with
  | ⟨0, _⟩ => show win0_4.index t (0 : Fin 2) * 1 + 1 * (y 0).val = (y 0).val; rw [h0]; omega
  | ⟨1, _⟩ => show win0_4.index t (1 : Fin 2) * 1 + 1 * (y 1).val = (y 1).val; rw [h1]; omega

/-- The weight of a row depends on the row and the four parameter arrays only. -/
theorem rowWeight_congr {row row' : Fin 16 → EReal} {w1 w1' : Vec Ideal ⟨2, ![16, 32]⟩ .f32}
    {b1 b1' : Vec Ideal ⟨2, ![1, 32]⟩ .f32} {w2 w2' : Vec Ideal ⟨2, ![32, 1]⟩ .f32} {b2 b2' : Vec Ideal ⟨2, ![1, 1]⟩ .f32}
    (h0 : row = row') (h1 : w1 = w1') (h2 : b1 = b1') (h3 : w2 = w2') (h4 : b2 = b2') :
    rowWeight row w1 b1 w2 b2 = rowWeight row' w1' b1' w2' b2' := by
  subst h0 h1 h2 h3 h4; rfl

/-- What point `t` writes back is block `t` of the column of edge weights of the arrays as the region finds them. -/
theorem flushed_eq (c : Dev nD) (t : Fin cfg0.N) :
    (dat0 (F := Ideal) V c).flushed 5 t
      = ((cfg0.win 5).blk t).view.read (Elt Ideal)
          (edgeWeight (V c main_arg2) (V c main_arg3) (V c main_v4) (V c main_arg5) (V c main_v5)) := by
  show (cfg0.win 5).cut (grid0.coords t) ((dat0 V c).after 5 t) = _
  rw [after0_5]
  unfold out0_5
  rw [View.canon_unit_zero zero_offsets]
  simp only [View.ld_unit_zero (S := S16000x16) zero_offsets, View.ld_unit_zero (S := S16x32) zero_offsets,
    View.ld_unit_zero (S := S1x32) zero_offsets, View.ld_unit_zero (S := S32x1) zero_offsets,
    View.ld_unit_zero (S := S1x1) zero_offsets]
  obtain ⟨-, -, -, -, -, -, -, -, -, -, f0, f1⟩ := block_indices t
  have hN : cfg0.N = 100 := N_0
  funext y
  obtain ⟨p, z, rfl⟩ : ∃ (p : Fin 16000) (z : Fin 1), y = ix2 p z := ⟨y 0, y 1, eq_ix2 y⟩
  obtain ⟨e, he⟩ : ∃ e : Fin 1600000, e.val = 16000 * t.val + p.val :=
    ⟨⟨16000 * t.val + p.val, by have := t.isLt; have := p.isLt; omega⟩, rfl⟩
  rw [View.read_apply]
  have hemb : ((cfg0.win 5).blk t).view.emb (ix2 p z) = (ix2 e z : S1600000x1.Idx) := by
    funext a; apply Fin.ext
    match a with
    | ⟨0, _⟩ => show win0_5.index t (0 : Fin 2) * 16000 + 1 * p.val = e.val; rw [f0, he]; omega
    | ⟨1, _⟩ => show win0_5.index t (1 : Fin 2) * 1 + 1 * z.val = z.val; rw [f1]; omega
  rw [hemb, edgeWeight_apply]
  show k0_pay1 (F := Ideal) (iblk0 V c 0 t) (iblk0 V c 1 t) (iblk0 V c 2 t) (iblk0 V c 3 t) (iblk0 V c 4 t) (ix2 p z) = _
  refine (payload_apply (iblk0 V c 0 t) (iblk0 V c 1 t) (iblk0 V c 2 t) (iblk0 V c 3 t) (iblk0 V c 4 t) p z).trans ?_
  exact rowWeight_congr (funext fun j => feature_block_apply V c t p j e he) (weight1_block V c t) (bias1_block V c t)
    (weight2_block V c t) (bias2_block V c t)

/-- An index of the output array lies in point `t`'s block when each coordinate lies in the block's range on its axis. -/
theorem mem_block (t : Fin cfg0.N) (i : S1600000x1.Idx) :
    i ∈ ((cfg0.win 5).blk t).view.set ↔ ∀ a : Fin 2, win0_5.index t a * S16000x1.size a ≤ (i a).val
      ∧ (i a).val < win0_5.index t a * S16000x1.size a + S16000x1.size a := by
  show i ∈ ((View.whole main_v6).slice (win0_5.rect t)).set ↔ _
  rw [View.set_slice_whole, Rect.mem_set_unit]
  exact Iff.rfl

/-- Every row of the output array lies in some point's block: row `e` in that of point `e / 16000`. -/
theorem covered (i : S1600000x1.Idx) :
    ∃ t : Fin cfg0.N, (cfg0.win 5).flush t = true ∧ i ∈ ((cfg0.win 5).blk t).view.set := by
  have hN : cfg0.N = 100 := N_0
  have hi0 : (i 0).val < 1600000 := (i 0).isLt
  have hi1 : (i 1).val < 1 := (i 1).isLt
  obtain ⟨t, ht⟩ : ∃ t : Fin cfg0.N, t.val = (i 0).val / 16000 := ⟨⟨(i 0).val / 16000, by rw [hN]; omega⟩, rfl⟩
  obtain ⟨-, -, -, -, -, -, -, -, -, -, f0, f1⟩ := block_indices t
  refine ⟨t, flush0_5 t, ?_⟩
  rw [mem_block]
  intro a
  match a with
  | ⟨0, _⟩ =>
    show win0_5.index t (0 : Fin 2) * 16000 ≤ (i 0).val ∧ (i 0).val < win0_5.index t (0 : Fin 2) * 16000 + 16000
    rw [f0, ht]; omega
  | ⟨1, _⟩ =>
    show win0_5.index t (1 : Fin 2) * 1 ≤ (i 1).val ∧ (i 1).val < win0_5.index t (1 : Fin 2) * 1 + 1
    rw [f1]; omega

end Blocks

/-- The region's output array after all its points is the column of edge weights of the five arrays as the region
    finds them. -/
theorem region0_value (V : (c : Dev Cert.KernelIdeal.nD) → (b : Ref Cert.KernelIdeal.sig .tc) →
      Buf (Elt Ideal) ((c : Thread Cert.KernelIdeal.nD Cert.KernelIdeal.τ).loc b)) (c : Dev Cert.KernelIdeal.nD) :
    (Cert.KernelIdeal.Gen.dat0 (F := Ideal) V c).arrAt 5 Cert.KernelIdeal.cfg0.N
      = edgeWeight (V c Cert.KernelIdeal.main_arg2) (V c Cert.KernelIdeal.main_arg3) (V c Cert.KernelIdeal.main_v4)
          (V c Cert.KernelIdeal.main_arg5) (V c Cert.KernelIdeal.main_v5) :=
  (dat0 (F := Ideal) V c).arrAt_eq_of_cover 5
    (edgeWeight (V c main_arg2) (V c main_arg3) (V c main_v4) (V c main_arg5) (V c main_v5))
    (fun t _ => flushed_eq V c t) covered

end Cert.Gcn.Edge

end
-- ==== Proof.Proj1Spec.lean ====
/- The projection x·W of a graph-convolution layer, entry by entry: row r, column c of the product of a
   [50000,128] feature matrix with a [128,128] weight matrix is the sum over the contracted axis k of
   x[r,k] * w[k,c], in the extended reals. The specification both sides of the comparison are read against. -/
import Idealize.ShloMosaic.Lib.ValueIdx
import Idealize.ShloMosaic.PureOps.Ideal.Laws

noncomputable section

open scoped BigOperators

namespace Cert.Gcn.Proj1

open Idealize.ShloMosaic Idealize.ShloMosaic.ValueIdx

/-- The matrix product, entry by entry: `proj1 x w (r, c) = ∑ k, x (r, k) * w (k, c)`. -/
def proj1 (x : Vec Ideal ⟨2, ![50000, 128]⟩ .f32) (w : Vec Ideal ⟨2, ![128, 128]⟩ .f32) :
    Vec Ideal ⟨2, ![50000, 128]⟩ .f32 :=
  fun i => ∑ k : Fin 128, x (ix2 (i 0) k) * w (ix2 k (i 1))

/-- The product read at row `r`, column `c`. -/
theorem proj1_apply (x : Vec Ideal ⟨2, ![50000, 128]⟩ .f32) (w : Vec Ideal ⟨2, ![128, 128]⟩ .f32)
    (r : Fin 50000) (c : Fin 128) :
    proj1 x w (ix2 r c) = ∑ k : Fin 128, x (ix2 r k) * w (ix2 k c) := rfl

end Cert.Gcn.Proj1

end
-- ==== Proof.Proj1Kernel.lean ====
/- Region 1 of the kernel, the projection x·W: each grid point multiplies its block of 5000 rows of the feature
   matrix by the whole weight matrix and writes the product to the same rows of the output; the ten blocks of rows
   cover the 50000 rows, so the output array ends holding the matrix product `proj1` of the two arrays as the
   region finds them. -/
import proofs.«403854_j52819507806473_3_alg».proof.Proof.Gen.KernelIdeal.Frame
import proofs.«403854_j52819507806473_3_alg».proof.Proof.Proj1Spec
import Idealize.ShloMosaic.Lib.Pipeline.Value
import Idealize.ShloMosaic.Lib.ValueIdx
import Idealize.ShloMosaic.PureOps.Ideal.Laws

set_option maxRecDepth 16384

noncomputable section

open scoped BigOperators

namespace Cert.Gcn.Proj1

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- The left operand's row coordinate at output index `j` is `j`'s row. -/
theorem blk_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction coordinate. -/
theorem blk_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right operand's row coordinate is the contraction coordinate. -/
theorem blk_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- The right operand's column coordinate at output index `j` is `j`'s column. -/
theorem blk_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at row `p`, column `q` of the block: the sum over the contracted axis of the block's row
    `p` against the weights' column `q` (a product accumulated into the zero block). -/
theorem blk_product (v0 : FVec Ideal S5000x128 .f32) (v1 : FVec Ideal S128x128 .f32) (p : Fin 5000) (q : Fin 128) :
    k1_pay1 (F := Ideal) v0 v1 (ix2 p q) = ∑ k : Fin 128, v0 (ix2 p k) * v1 (ix2 k q) := by
  unfold k1_pay1
  show FloatOps.matmul (F := Ideal) dot_S5000x128_S128x128_S5000x128_1_0_0_1_n_n none v0 v1 (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blk_lhs_0 _ _
    | ⟨1, _⟩ => exact (blk_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blk_rhs_0 _ _).trans hk
    | ⟨1, _⟩ => exact blk_rhs_1 _ _)
  rw [el, er]

/-! ## One grid point: the block product is the matrix product on the block's rows -/

/-- A block of rows of `x` starting at row `b * 5000`, multiplied by `w`, is `proj1 x w` on those rows: the block's
    entry (p, q) is the product's entry (b * 5000 + p, q). -/
theorem rows_product (x : FVec Ideal S50000x128 .f32) (w : FVec Ideal S128x128 .f32) (v0 : FVec Ideal S5000x128 .f32) (b : Nat)
    (h0 : ∀ (y : S5000x128.Idx) (i : S50000x128.Idx), (i 0).val = b * 5000 + (y 0).val → (i 1).val = (y 1).val → v0 y = x i)
    (j : S5000x128.Idx) (i : S50000x128.Idx) (hi0 : (i 0).val = b * 5000 + (j 0).val) (hi1 : (i 1).val = (j 1).val) :
    k1_pay1 (F := Ideal) v0 w j = proj1 x w i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  rw [blk_product, proj1_apply]
  refine Finset.sum_congr rfl fun k _ => ?_
  rw [h0 (ix2 p k) (ix2 r k) hi0 rfl]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the ten grid points: the feature window and the output window sit at block row `t`,
    block column 0; the weight window stays at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature window's block at point `t` is rows `5000 t … 5000 t + 4999` of the feature array. -/
theorem feature_block (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_arg0 : S50000x128.Idx → Elt Ideal .f32) i := by
  obtain ⟨e0, e1, -, -, -, -⟩ := block_indices t
  show V c main_arg0 (((cfg1.win 0).blk t).view.emb y) = V c main_arg0 i
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The weight window's block at every point is the whole weight array. -/
theorem weight_block (c : Dev nD) (t : Fin cfg1.N) :
    (iblk1 V c 1 t : Vec Ideal S128x128 .f32) = (V c main_arg7 : S128x128.Idx → Elt Ideal .f32) := by
  obtain ⟨-, -, e0, e1, -, -⟩ := block_indices t
  funext y
  show V c main_arg7 (((cfg1.win 1).blk t).view.emb y) = V c main_arg7 y
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- What point `t` writes back is block `t` of the matrix product of the two arrays as the region finds them. -/
theorem written_block (c : Dev nD) (t : Fin cfg1.N) :
    (dat1 (F := Ideal) V c).flushed 2 t
      = ((cfg1.win 2).blk t).view.read (Elt Ideal) (proj1 (V c main_arg0) (V c main_arg7)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  rw [weight_block]
  obtain ⟨-, -, -, -, e0, e1⟩ := block_indices t
  funext j
  show k1_pay1 (F := Ideal) (iblk1 V c 0 t) (V c main_arg7) j = proj1 (V c main_arg0) (V c main_arg7) (((cfg1.win 2).blk t).view.emb j)
  refine rows_product (V c main_arg0) (V c main_arg7) (iblk1 V c 0 t) t.val (fun y i h0 h1 => feature_block V c t y i h0 h1) j (((cfg1.win 2).blk t).view.emb j) ?_ ?_
  · show win1_2.index t (0 : Fin 2) * 5000 + 1 * (j 0).val = t.val * 5000 + (j 0).val; rw [e0]; omega
  · show win1_2.index t (1 : Fin 2) * 128 + 1 * (j 1).val = (j 1).val; rw [e1]; omega

/-- An index of the output array is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v29).slice (win1_2.rect t)).set ↔ _
  rw [View.set_slice_whole, Rect.mem_set_unit]
  exact Iff.rfl

/-- The ten blocks of 5000 rows cover the 50000 rows: row `r` is in the block of point `r / 5000`. -/
theorem rows_covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_2 _, ?_⟩
  rw [mem_block]
  obtain ⟨-, -, -, -, e0, e1⟩ := block_indices ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e0]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e1]; omega

/-- THE OUTPUT ARRAY after the region's ten points is the matrix product of the feature array and the weight array
    as the region finds them. -/
theorem region1_value (c : Dev nD) :
    (dat1 (F := Ideal) V c).arrAt 2 cfg1.N = proj1 (V c main_arg0) (V c main_arg7) :=
  (dat1 (F := Ideal) V c).arrAt_eq_of_cover 2 (proj1 (V c main_arg0) (V c main_arg7))
    (fun t _ => written_block V c t) rows_covered

end Cert.Gcn.Proj1

end
-- ==== Proof.Proj2Spec.lean ====
/-
  The second graph-convolution layer's projection as ONE function of its three arrays.

  For aggregated node features `a` ([50000, 128]), a bias row `b` ([1, 128]) and a weight matrix `w` ([128, 40]) the
  projection is, entry by entry,

      proj2 a b w (p, q) = ∑ k < 128, max (a (p, k) + b (0, k)) 0 * w (k, q):

  the bias is added along every row, the sum is clamped below at zero (the rectifier), and row `p` of the result is
  multiplied into column `q` of the weights. Every operation is the extended reals' own; no law beyond reading the
  definition is used, so no finiteness is needed anywhere.
-/
import Idealize.ShloMosaic.Lib.ValueIdx

noncomputable section

open scoped BigOperators

namespace Cert.Gcn.Proj2

open Idealize.ShloMosaic Idealize.ShloMosaic.ValueIdx

/-- The projection: row `p` of `a` plus the bias row, clamped below at zero, times column `q` of `w`. -/
def proj2 (a : Vec Ideal ⟨2, ![50000, 128]⟩ .f32) (b : Vec Ideal ⟨2, ![1, 128]⟩ .f32)
    (w : Vec Ideal ⟨2, ![128, 40]⟩ .f32) : Vec Ideal ⟨2, ![50000, 40]⟩ .f32 :=
  fun i => ∑ k : Fin 128,
    max ((a (ix2 (⟨(i 0).val, (i 0).isLt⟩ : Fin 50000) k) : EReal) + b (ix2 (0 : Fin 1) k)) 0
      * w (ix2 k (⟨(i 1).val, (i 1).isLt⟩ : Fin 40))

/-- The projection at the entry with coordinates `p` and `q`. -/
theorem proj2_apply (a : Vec Ideal ⟨2, ![50000, 128]⟩ .f32) (b : Vec Ideal ⟨2, ![1, 128]⟩ .f32)
    (w : Vec Ideal ⟨2, ![128, 40]⟩ .f32) (p : Fin 50000) (q : Fin 40) :
    proj2 a b w (ix2 p q) = ∑ k : Fin 128, max ((a (ix2 p k) : EReal) + b (ix2 (0 : Fin 1) k)) 0 * w (ix2 k q) := rfl

/-- An entry of the projection depends on the index only through its two coordinates' values: it is the sum above at
    any `p`, `q` with those values. -/
theorem proj2_apply_of_val (a : Vec Ideal ⟨2, ![50000, 128]⟩ .f32) (b : Vec Ideal ⟨2, ![1, 128]⟩ .f32)
    (w : Vec Ideal ⟨2, ![128, 40]⟩ .f32) (i : (⟨2, ![50000, 40]⟩ : Shape).Idx) (p : Fin 50000) (q : Fin 40)
    (hp : (i 0).val = p.val) (hq : (i 1).val = q.val) :
    proj2 a b w i = ∑ k : Fin 128, max ((a (ix2 p k) : EReal) + b (ix2 (0 : Fin 1) k)) 0 * w (ix2 k q) := by
  have e : i = ix2 p q := by
    funext d
    match d with
    | ⟨0, _⟩ => exact Fin.ext hp
    | ⟨1, _⟩ => exact Fin.ext hq
  rw [e, proj2_apply]

end Cert.Gcn.Proj2

end
-- ==== Proof.Proj2Kernel.lean ====
/-
  The third kernel region computes the projection, block of rows by block of rows.

  The region walks ten grid points. At point t it holds rows 5000 t … 5000 t + 4999 of the aggregated features
  (a [5000, 128] block), the whole bias row [1, 128] and the whole weight matrix [128, 40], and writes rows
  5000 t … 5000 t + 4999 of the result (a [5000, 40] block). What it writes at local entry (p, q) is

      ∑ k < 128, max (block (p, k) + bias (0, k)) 0 * weights (k, q):

  the bias row is laid along the block's rows and added, the sum is clamped below at zero, and the product with the
  weights is accumulated from zero, so at the extended reals it is the plain sum over the contracted axis. Since
  block (p, k) is the array's entry (5000 t + p, k), this is entry (5000 t + p, q) of the projection of the three
  whole arrays: each point writes its own block of ONE whole-array function. Row r lies in the block of point
  r / 5000, the ten blocks cover all 50000 rows, and so the result array after the last point IS the projection.
-/
import proofs.«403854_j52819507806473_3_alg».proof.Proof.Gen.KernelIdeal.Frame
import proofs.«403854_j52819507806473_3_alg».proof.Proof.Proj2Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Proj2

open Cert.KernelIdeal Cert.KernelIdeal.Gen Idealize.ShloMosaic Idealize.ShloMosaic.ValueIdx Idealize.ShloMosaic.TcCoe Idealize.SL.Sem
open Idealize.ShloMosaic.Pipeline (Dat)

/-! ## The block product's operand indices

The block product contracts the left operand's axis 1 with the right operand's axis 0 and has no batch axis: at
output entry `i` and contraction index `q` the left operand is read at (i 0, q) and the right at (q, i 1). -/

theorem blockdot_lhs_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem blockdot_lhs_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem blockdot_rhs_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem blockdot_rhs_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-! ## What one point computes, at an entry -/

/-- The body's value at local entry (p, q), from the three blocks it loads: the sum over the contracted axis of the
    rectified biased features at (p, k) times the weights at (k, q). The product accumulates into zero, so it is the
    sum alone; the two casts keep their operands' shapes; the bias row is read at its column whatever the row. -/
theorem block_product_apply (x0 : Vec Ideal S5000x128 .f32) (x1 : Vec Ideal S1x128 .f32) (x2 : Vec Ideal S128x40 .f32)
    (p : Fin 5000) (q : Fin 40) :
    k2_pay1 (F := Ideal) x0 x1 x2 (ix2 p q)
      = ∑ k : Fin 128, max ((x0 (ix2 p k) : EReal) + x1 (ix2 (0 : Fin 1) k)) 0 * x2 (ix2 k q) := by
  unfold k2_pay1
  simp only [matmul]
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact blockdot_lhs_0 _ _
    | ⟨1, _⟩ => exact (blockdot_lhs_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (blockdot_rhs_0 _ _).trans hk
    | ⟨1, _⟩ => exact blockdot_rhs_1 _ _)
  rw [el, er]
  rw [maximumf_apply, addf_apply, shapeCast_self, shapeCast_self, broadcastTo_1b_ab_apply, broadcast_apply]
  exact congrArg (fun z : EReal => max ((x0 (ix2 p k) : EReal) + x1 (ix2 (0 : Fin 1) k)) z * x2 (ix2 k q)) Ideal.ofBits_zero_f32

/-- A point's value is the projection's, entry by entry: if the feature block is rows `5000 n + p` of the array `A`
    and the two small blocks are the whole arrays `B` and `W`, then the body's value at a local entry `j` is the
    projection of `A`, `B`, `W` at the entry `i` lying `5000 n` rows further down in the same column. -/
theorem block_entry_eq_proj2 (A : Vec Ideal S50000x128 .f32) (B : Vec Ideal S1x128 .f32) (W : Vec Ideal S128x40 .f32)
    (x0 : Vec Ideal S5000x128 .f32) (x1 : Vec Ideal S1x128 .f32) (x2 : Vec Ideal S128x40 .f32) (n : Nat)
    (h0 : ∀ (p : Fin 5000) (k : Fin 128) (r : Fin 50000), r.val = n * 5000 + p.val → x0 (ix2 p k) = A (ix2 r k))
    (h1 : ∀ k : Fin 128, x1 (ix2 (0 : Fin 1) k) = B (ix2 (0 : Fin 1) k))
    (h2 : ∀ (k : Fin 128) (q : Fin 40), x2 (ix2 k q) = W (ix2 k q))
    (j : S5000x40.Idx) (i : S50000x40.Idx) (hi0 : (i 0).val = n * 5000 + (j 0).val) (hi1 : (i 1).val = (j 1).val) :
    k2_pay1 (F := Ideal) x0 x1 x2 j = proj2 A B W i := by
  obtain ⟨p, q, rfl⟩ : ∃ (p : Fin 5000) (q : Fin 40), j = ix2 p q := ⟨j 0, j 1, eq_ix2 j⟩
  have hr : n * 5000 + p.val < 50000 := by
    have hlt : (i 0).val < 50000 := (i 0).isLt
    have e : (i 0).val = n * 5000 + p.val := hi0
    omega
  rw [block_product_apply, proj2_apply_of_val A B W i ⟨n * 5000 + p.val, hr⟩ q hi0 hi1]
  refine Finset.sum_congr rfl fun k _ => ?_
  rw [h0 p k ⟨n * 5000 + p.val, hr⟩ rfl, h1 k, h2 k q]

/-! ## From the blocks to the array -/

theorem zero_offsets : (![0, 0] : Fin 2 → Nat) = fun _ => 0 := funext fun a => match a with | ⟨0, _⟩ => rfl | ⟨1, _⟩ => rfl

/-- The block indices at point `t`, decided over the ten points: the feature window and the result window are at block
    row `t`, column 0; the bias row and the weights stay at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What point `t` writes back is block `t` of the projection of the three arrays as the region finds them: an
    element of a block sits in its array, on each axis, at block index × block size + its coordinate in the block. -/
theorem written_block_eq (c : Dev nD) (t : Fin cfg2.N) :
    (dat2 (F := Ideal) V c).flushed 3 t
      = ((cfg2.win 3).blk t).view.read (Elt Ideal) (proj2 (V c main_v39) (V c main_v40) (V c main_arg9)) := by
  show (cfg2.win 3).cut (grid2.coords t) ((dat2 (F := Ideal) V c).after 3 t) = _
  rw [after2_3]
  unfold out2_3
  rw [View.canon_unit_zero zero_offsets]
  simp only [View.ld_unit_zero (S := S5000x128) zero_offsets, View.ld_unit_zero (S := S1x128) zero_offsets,
    View.ld_unit_zero (S := S128x40) zero_offsets]
  obtain ⟨e00, e01, e10, e11, e20, e21, e30, e31⟩ := block_indices t
  funext j
  show k2_pay1 (F := Ideal) (iblk2 V c 0 t) (iblk2 V c 1 t) (iblk2 V c 2 t) ((cfg2.win 3).xinj (grid2.coords t) j)
      = proj2 (V c main_v39) (V c main_v40) (V c main_arg9) (((cfg2.win 3).blk t).view.emb j)
  refine block_entry_eq_proj2 (V c main_v39) (V c main_v40) (V c main_arg9) (iblk2 V c 0 t) (iblk2 V c 1 t) (iblk2 V c 2 t) t.val
    ?_ ?_ ?_ ((cfg2.win 3).xinj (grid2.coords t) j) (((cfg2.win 3).blk t).view.emb j) ?_ ?_
  · -- the feature block's row p is the array's row 5000 t + p
    intro p k r hr
    show V c main_v39 (((cfg2.win 0).blk t).view.emb (ix2 p k)) = V c main_v39 (ix2 r k)
    refine congrArg (V c main_v39) (funext fun a => Fin.ext ?_)
    match a with
    | ⟨0, _⟩ => show win2_0.index t (0 : Fin 2) * 5000 + 1 * p.val = r.val; rw [e00, hr]; omega
    | ⟨1, _⟩ => show win2_0.index t (1 : Fin 2) * 128 + 1 * k.val = k.val; rw [e01]; omega
  · -- the bias block is the bias row
    intro k
    show V c main_v40 (((cfg2.win 1).blk t).view.emb (ix2 (0 : Fin 1) k)) = V c main_v40 (ix2 (0 : Fin 1) k)
    refine congrArg (V c main_v40) (funext fun a => Fin.ext ?_)
    match a with
    | ⟨0, _⟩ => show win2_1.index t (0 : Fin 2) * 1 + 1 * 0 = 0; rw [e10]
    | ⟨1, _⟩ => show win2_1.index t (1 : Fin 2) * 128 + 1 * k.val = k.val; rw [e11]; omega
  · -- the weight block is the weight matrix
    intro k q
    show V c main_arg9 (((cfg2.win 2).blk t).view.emb (ix2 k q)) = V c main_arg9 (ix2 k q)
    refine congrArg (V c main_arg9) (funext fun a => Fin.ext ?_)
    match a with
    | ⟨0, _⟩ => show win2_2.index t (0 : Fin 2) * 128 + 1 * k.val = k.val; rw [e20]; omega
    | ⟨1, _⟩ => show win2_2.index t (1 : Fin 2) * 40 + 1 * q.val = q.val; rw [e21]; omega
  · -- the written entry lies 5000 t rows below the local one
    show win2_3.index t (0 : Fin 2) * 5000 + 1 * (j 0).val = t.val * 5000 + (j 0).val
    rw [e30]; omega
  · -- in the same column
    show win2_3.index t (1 : Fin 2) * 40 + 1 * (j 1).val = (j 1).val
    rw [e31]; omega

end

/-- An entry of the result array is in point `t`'s block iff each coordinate is in the block's range on its axis. -/
theorem mem_row_block (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v41).slice (win2_3.rect t)).set ↔ _
  rw [View.set_slice_whole, Rect.mem_set_unit]
  exact Iff.rfl

/-- Every entry of the result array is written: row r lies in the block of point r / 5000, and every point writes back. -/
theorem rows_covered (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  have hN : cfg2.N = 10 := N_2
  have ht : (i 0).val / 5000 < cfg2.N := by rw [hN]; omega
  obtain ⟨e00, e01, e10, e11, e20, e21, e30, e31⟩ := block_indices ⟨(i 0).val / 5000, ht⟩
  refine ⟨⟨(i 0).val / 5000, ht⟩, flush2_3 _, ?_⟩
  rw [mem_row_block]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 40 ≤ (i 1).val ∧ (i 1).val < win2_3.index ⟨(i 0).val / 5000, ht⟩ (1 : Fin 2) * 40 + 40
    rw [e31]
    omega

/-- The result array after the region's last point is the projection of the aggregated features, the bias row and the
    weights as the region finds them. -/
theorem region2_value (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat2 (F := Ideal) V c).arrAt 3 Cert.KernelIdeal.cfg2.N
      = proj2 (V c Cert.KernelIdeal.main_v39) (V c Cert.KernelIdeal.main_v40) (V c Cert.KernelIdeal.main_arg9) :=
  (dat2 (F := Ideal) V c).arrAt_eq_of_cover 3 (proj2 (V c main_v39) (V c main_v40) (V c main_arg9))
    (fun t _ => written_block_eq V c t) rows_covered

end Cert.Gcn.Proj2

end
-- ==== Proof.KValue.lean ====
/-
  The kernel's result array as ONE function of the eleven argument arrays.

  The fold of KChain.lean is walked from the launch memory upward: the two rows of the edge table; the edge
  perceptron's output (the first region's array: the sigmoid of a two-layer perceptron on each edge's features);
  the self-loops, degrees, their inverse square roots and the edge scalar; the first projection (the second
  region's array); the first layer's sum; relu, bias and the second projection (the third region's array); the
  second layer's sum and the output bias.
-/
import proofs.«403854_j52819507806473_3_alg».proof.Proof.KChain
import proofs.«403854_j52819507806473_3_alg».proof.Proof.EdgeKernel
import proofs.«403854_j52819507806473_3_alg».proof.Proof.Proj1Kernel
import proofs.«403854_j52819507806473_3_alg».proof.Proof.Proj2Kernel

noncomputable section

namespace Cert.Gcn

open Cert.KernelIdeal Cert.KernelIdeal.Gen Cert.Gcn Cert.Gcn.Chain Idealize.ShloMosaic Idealize.ShloMosaic.TcCoe Idealize.SL.Sem

/-! ## The value -/

/-- The edge weights as a vector, one unit weight per self-loop appended. -/
def loopWeights (ew : FVec Ideal S1600000x1 .f32) : FVec Ideal S1650000 .f32 :=
  withUnitLoops (shapeCast S1600000 ew shapeCasts_S1600000x1_S1600000)

/-- Two layers in the scaled-rows grouping, from the edge weights `ew` (a column, one per edge), the first
    projection `h1` and the map `second` from the first layer's sum to the second projection. -/
def twoLayersScaled (a1 : IVec S2x1600000 32) (ew : FVec Ideal S1600000x1 .f32) (h1 : FVec Ideal S50000x128 .f32)
    (second : FVec Ideal S50000x128 .f32 → FVec Ideal S50000x40 .f32) (a10 : FVec Ideal S40 .f32) : FVec Ideal S50000x40 .f32 :=
  addBias40
    (aggByScaledRows40
      (second (aggByScaledRows128 h1 (invSqrtDeg (withLoops (tgtWords a1)) (loopWeights ew)) (withLoops (srcWords a1)) (withLoops (tgtWords a1)) (loopWeights ew)))
      (invSqrtDeg (withLoops (tgtWords a1)) (loopWeights ew)) (withLoops (srcWords a1)) (withLoops (tgtWords a1)) (loopWeights ew))
    a10

/-- The kernel's result as a function of its arguments. -/
def kernelOut (a0 : FVec Ideal S50000x128 .f32) (a1 : IVec S2x1600000 32) (a2 : FVec Ideal S1600000x16 .f32) (a3 : FVec Ideal S16x32 .f32)
    (a4 : FVec Ideal S32 .f32) (a5 : FVec Ideal S32x1 .f32) (a6 : FVec Ideal S1 .f32) (a7 : FVec Ideal S128x128 .f32) (a8 : FVec Ideal S128 .f32)
    (a9 : FVec Ideal S128x40 .f32) (a10 : FVec Ideal S40 .f32) : FVec Ideal S50000x40 .f32 :=
  twoLayersScaled a1
    (Edge.edgeWeight a2 a3 (shapeCast S1x32 a4 shapeCasts_S32_S1x32) a5 (shapeCast S1x1 a6 shapeCasts_S1_S1x1))
    (Proj1.proj1 a0 a7)
    (fun A => Proj2.proj2 A (shapeCast S1x128 a8 shapeCasts_S128_S1x128) a9)
    a10

variable (m : (ℓ : Loc nD τ sig) → Buf (Elt Ideal) ℓ) (ρ : Dev nD → PrngReg) (c : Dev nD)

/-! ## The first region's exit -/

theorem edgeWeights_at_exit0 : W2 m ρ c (Proc.devRef .tc main_v6) =
    Edge.edgeWeight (m ((c : Thread nD τ).loc main_arg2)) (m ((c : Thread nD τ).loc main_arg3)) (shapeCast S1x32 (m ((c : Thread nD τ).loc main_arg4)) shapeCasts_S32_S1x32) (m ((c : Thread nD τ).loc main_arg5)) (shapeCast S1x1 (m ((c : Thread nD τ).loc main_arg6)) shapeCasts_S1_S1x1) := by
  refine (W2_arr m ρ c 5).trans ((Edge.region0_value (V1 m ρ) c).trans ?_)
  show Edge.edgeWeight (W1 m ρ c (Proc.devRef .tc main_arg2)) (W1 m ρ c (Proc.devRef .tc main_arg3)) (W1 m ρ c (Proc.devRef .tc main_v4))
    (W1 m ρ c (Proc.devRef .tc main_arg5)) (W1 m ρ c (Proc.devRef .tc main_v5)) = _
  rw [W1_arg2, W1_arg3, bias1Row_of_launch, W1_arg5, bias2Row_of_launch]
theorem src_at_exit0 : W2 m ρ c (Proc.devRef .tc main_v1) = srcWords (m ((c : Thread nD τ).loc main_arg1)) :=
  (W2_of_ne m ρ c main_v1 (by decide)).trans (src_of_launch m ρ c)
theorem tgt_at_exit0 : W2 m ρ c (Proc.devRef .tc main_v3) = tgtWords (m ((c : Thread nD τ).loc main_arg1)) :=
  (W2_of_ne m ρ c main_v3 (by decide)).trans (tgt_of_launch m ρ c)
theorem arg0_at_exit0 : W2 m ρ c (Proc.devRef .tc main_arg0) = (m ((c : Thread nD τ).loc main_arg0)) :=
  (W2_of_ne m ρ c main_arg0 (by decide)).trans (W1_arg0 m ρ c)
theorem arg7_at_exit0 : W2 m ρ c (Proc.devRef .tc main_arg7) = (m ((c : Thread nD τ).loc main_arg7)) :=
  (W2_of_ne m ρ c main_arg7 (by decide)).trans (W1_arg7 m ρ c)
theorem arg8_at_exit0 : W2 m ρ c (Proc.devRef .tc main_arg8) = (m ((c : Thread nD τ).loc main_arg8)) :=
  (W2_of_ne m ρ c main_arg8 (by decide)).trans (W1_arg8 m ρ c)
theorem arg9_at_exit0 : W2 m ρ c (Proc.devRef .tc main_arg9) = (m ((c : Thread nD τ).loc main_arg9)) :=
  (W2_of_ne m ρ c main_arg9 (by decide)).trans (W1_arg9 m ρ c)
theorem arg10_at_exit0 : W2 m ρ c (Proc.devRef .tc main_arg10) = (m ((c : Thread nD τ).loc main_arg10)) :=
  (W2_of_ne m ρ c main_arg10 (by decide)).trans (W1_arg10 m ρ c)

/-! ## The second region's entry and exit -/

abbrev rf : IVec S1650000 32 := withLoops (srcWords (m ((c : Thread nD τ).loc main_arg1)))
abbrev cf : IVec S1650000 32 := withLoops (tgtWords (m ((c : Thread nD τ).loc main_arg1)))
abbrev wl : FVec Ideal S1650000 .f32 :=
  loopWeights (Edge.edgeWeight (m ((c : Thread nD τ).loc main_arg2)) (m ((c : Thread nD τ).loc main_arg3)) (shapeCast S1x32 (m ((c : Thread nD τ).loc main_arg4)) shapeCasts_S32_S1x32) (m ((c : Thread nD τ).loc main_arg5)) (shapeCast S1x1 (m ((c : Thread nD τ).loc main_arg6)) shapeCasts_S1_S1x1))

theorem srcLoops_at_entry1 : W5 m ρ c (Proc.devRef .tc main_v9) = rf m c := by
  rw [srcLoops_of_W2, src_at_exit0]
theorem tgtLoops_at_entry1 : W5 m ρ c (Proc.devRef .tc main_v10) = cf m c := by
  rw [tgtLoops_of_W2, tgt_at_exit0]
theorem dinv_at_entry1 : W5 m ρ c (Proc.devRef .tc main_v20) = invSqrtDeg (cf m c) (wl m c) := by
  rw [dinv_of_W2, tgt_at_exit0, edgeWeights_at_exit0]; rfl
theorem edgeScalar_at_entry1 : W5 m ρ c (Proc.devRef .tc main_v28) = scaleByTarget (invSqrtDeg (cf m c) (wl m c)) (cf m c) (wl m c) := by
  rw [edgeScalar_of_W2, tgt_at_exit0, edgeWeights_at_exit0]; rfl
theorem arg0_at_entry1 : W5 m ρ c (Proc.devRef .tc main_arg0) = (m ((c : Thread nD τ).loc main_arg0)) := by
  rw [W5_arg0, arg0_at_exit0]
theorem arg7_at_entry1 : W5 m ρ c (Proc.devRef .tc main_arg7) = (m ((c : Thread nD τ).loc main_arg7)) := by
  rw [W5_arg7, arg7_at_exit0]
theorem arg8_at_entry1 : W5 m ρ c (Proc.devRef .tc main_arg8) = (m ((c : Thread nD τ).loc main_arg8)) := by
  rw [W5_arg8, arg8_at_exit0]
theorem arg9_at_entry1 : W5 m ρ c (Proc.devRef .tc main_arg9) = (m ((c : Thread nD τ).loc main_arg9)) := by
  rw [W5_arg9, arg9_at_exit0]
theorem arg10_at_entry1 : W5 m ρ c (Proc.devRef .tc main_arg10) = (m ((c : Thread nD τ).loc main_arg10)) := by
  rw [W5_arg10, arg10_at_exit0]

theorem proj1_at_exit1 : W6 m ρ c (Proc.devRef .tc main_v29) = Proj1.proj1 (m ((c : Thread nD τ).loc main_arg0)) (m ((c : Thread nD τ).loc main_arg7)) := by
  refine (W6_arr m ρ c 2).trans ((Proj1.region1_value (V5 m ρ) c).trans ?_)
  show Proj1.proj1 (W5 m ρ c (Proc.devRef .tc main_arg0)) (W5 m ρ c (Proc.devRef .tc main_arg7)) = _
  rw [arg0_at_entry1, arg7_at_entry1]
theorem srcLoops_at_exit1 : W6 m ρ c (Proc.devRef .tc main_v9) = rf m c :=
  (W6_of_ne m ρ c main_v9 (by decide)).trans (srcLoops_at_entry1 m ρ c)
theorem tgtLoops_at_exit1 : W6 m ρ c (Proc.devRef .tc main_v10) = cf m c :=
  (W6_of_ne m ρ c main_v10 (by decide)).trans (tgtLoops_at_entry1 m ρ c)
theorem dinv_at_exit1 : W6 m ρ c (Proc.devRef .tc main_v20) = invSqrtDeg (cf m c) (wl m c) :=
  (W6_of_ne m ρ c main_v20 (by decide)).trans (dinv_at_entry1 m ρ c)
theorem edgeScalar_at_exit1 : W6 m ρ c (Proc.devRef .tc main_v28) = scaleByTarget (invSqrtDeg (cf m c) (wl m c)) (cf m c) (wl m c) :=
  (W6_of_ne m ρ c main_v28 (by decide)).trans (edgeScalar_at_entry1 m ρ c)
theorem arg8_at_exit1 : W6 m ρ c (Proc.devRef .tc main_arg8) = (m ((c : Thread nD τ).loc main_arg8)) :=
  (W6_of_ne m ρ c main_arg8 (by decide)).trans (arg8_at_entry1 m ρ c)
theorem arg9_at_exit1 : W6 m ρ c (Proc.devRef .tc main_arg9) = (m ((c : Thread nD τ).loc main_arg9)) :=
  (W6_of_ne m ρ c main_arg9 (by decide)).trans (arg9_at_entry1 m ρ c)
theorem arg10_at_exit1 : W6 m ρ c (Proc.devRef .tc main_arg10) = (m ((c : Thread nD τ).loc main_arg10)) :=
  (W6_of_ne m ρ c main_arg10 (by decide)).trans (arg10_at_entry1 m ρ c)

/-! ## The third region's entry and exit -/

abbrev agg1 : FVec Ideal S50000x128 .f32 :=
  aggByScaledRows128 (Proj1.proj1 (m ((c : Thread nD τ).loc main_arg0)) (m ((c : Thread nD τ).loc main_arg7))) (invSqrtDeg (cf m c) (wl m c)) (rf m c) (cf m c) (wl m c)

theorem agg1_at_entry2 : W9 m ρ c (Proc.devRef .tc main_v39) = agg1 m c := by
  rw [agg1_of_W6, tgtLoops_at_exit1, proj1_at_exit1, dinv_at_exit1, srcLoops_at_exit1, edgeScalar_at_exit1]; rfl
theorem biasRow_at_entry2 : W9 m ρ c (Proc.devRef .tc main_v40) = shapeCast S1x128 (m ((c : Thread nD τ).loc main_arg8)) shapeCasts_S128_S1x128 := by
  rw [biasRow_of_W6, arg8_at_exit1]
theorem arg9_at_entry2 : W9 m ρ c (Proc.devRef .tc main_arg9) = (m ((c : Thread nD τ).loc main_arg9)) := by rw [W9_arg9, arg9_at_exit1]
theorem arg10_at_entry2 : W9 m ρ c (Proc.devRef .tc main_arg10) = (m ((c : Thread nD τ).loc main_arg10)) := by rw [W9_arg10, arg10_at_exit1]
theorem srcLoops_at_entry2 : W9 m ρ c (Proc.devRef .tc main_v9) = rf m c := by rw [W9_v9, srcLoops_at_exit1]
theorem tgtLoops_at_entry2 : W9 m ρ c (Proc.devRef .tc main_v10) = cf m c := by rw [W9_v10, tgtLoops_at_exit1]
theorem dinv_at_entry2 : W9 m ρ c (Proc.devRef .tc main_v20) = invSqrtDeg (cf m c) (wl m c) := by rw [W9_v20, dinv_at_exit1]
theorem edgeScalar_at_entry2 : W9 m ρ c (Proc.devRef .tc main_v28) = scaleByTarget (invSqrtDeg (cf m c) (wl m c)) (cf m c) (wl m c) := by
  rw [W9_v28, edgeScalar_at_exit1]

theorem proj2_at_exit2 : W10 m ρ c (Proc.devRef .tc main_v41) = Proj2.proj2 (agg1 m c) (shapeCast S1x128 (m ((c : Thread nD τ).loc main_arg8)) shapeCasts_S128_S1x128) (m ((c : Thread nD τ).loc main_arg9)) := by
  refine (W10_arr m ρ c 3).trans ((Proj2.region2_value (V9 m ρ) c).trans ?_)
  show Proj2.proj2 (W9 m ρ c (Proc.devRef .tc main_v39)) (W9 m ρ c (Proc.devRef .tc main_v40)) (W9 m ρ c (Proc.devRef .tc main_arg9)) = _
  rw [agg1_at_entry2, biasRow_at_entry2, arg9_at_entry2]

/-! ## The result -/

/-- The kernel's result buffer at the last segment boundary is `kernelOut` of the launch contents of the arguments. -/
theorem kernel_value : W13 m ρ c (Proc.devRef .tc main_v54) =
    kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [out_of_W10,
    W10_of_ne m ρ c main_v10 (by decide), W10_of_ne m ρ c main_v20 (by decide), W10_of_ne m ρ c main_v9 (by decide),
    W10_of_ne m ρ c main_v28 (by decide), W10_of_ne m ρ c main_arg10 (by decide),
    proj2_at_exit2, tgtLoops_at_entry2, dinv_at_entry2, srcLoops_at_entry2, edgeScalar_at_entry2, arg10_at_entry2]
  rfl

end Cert.Gcn

end
-- ==== Proof.RefStages.lean ====
/-
  The reference's stages are the same host stages.

  The reference computes, for each of its two layers anew, the edge list with self-loops, the weights with unit
  loops, the degrees, their inverse square roots and the symmetric normaliser, then gathers the source rows, scales
  them by the normaliser and sums them at the targets. Operation for operation these are the stages named in
  Stages.lean, applied to the reference's own edge weights and feature arrays; the second layer's copies of the
  edge-side stages are the first layer's, word for word.
-/
import proofs.«403854_j52819507806473_3_alg».proof.Proof.Gen.ReferenceIdeal.Read
import proofs.«403854_j52819507806473_3_alg».proof.Proof.Stages

noncomputable section

namespace Cert.Gcn.Ref

open Cert.KernelIdeal Cert.Gcn Idealize.ShloMosaic
open Cert.ReferenceIdeal.Read

variable {F : FTy → Type} [FloatOps F]
variable (x0 : FVec F S50000x128 .f32) (x1 : IVec S2x1600000 32) (x2 : FVec F S1600000x16 .f32) (x3 : FVec F S16x32 .f32)
  (x4 : FVec F S32 .f32) (x5 : FVec F S32x1 .f32) (x6 : FVec F S1 .f32) (x7 : FVec F S128x128 .f32) (x8 : FVec F S128 .f32)
  (x9 : FVec F S128x40 .f32) (x10 : FVec F S40 .f32)

/-! ## The edge side, first layer -/

theorem srcLoops : val_main_v21 (F := F) x1 = withLoops (srcWords x1) := rfl
theorem tgtLoops : val_main_v22 (F := F) x1 = withLoops (tgtWords x1) := rfl
theorem unitLoops : val_main_v24 (F := F) x2 x3 x4 x5 x6 = withUnitLoops (val_main_v19 (F := F) x2 x3 x4 x5 x6) := rfl
theorem degrees : val_main_v27 (F := F) x1 x2 x3 x4 x5 x6 = degree (val_main_v22 (F := F) x1) (val_main_v24 (F := F) x2 x3 x4 x5 x6) := rfl
theorem dinv : val_main_v32 (F := F) x1 x2 x3 x4 x5 x6 = invSqrtDeg (val_main_v22 (F := F) x1) (val_main_v24 (F := F) x2 x3 x4 x5 x6) := rfl
theorem srcStart : val_main_v38 (F := F) x1 = startCol (val_main_v21 (F := F) x1) := rfl
theorem tgtStart : val_main_v46 (F := F) x1 = startCol (val_main_v22 (F := F) x1) := rfl
theorem norm : val_main_v48 (F := F) x1 x2 x3 x4 x5 x6 =
    symNorm (val_main_v32 (F := F) x1 x2 x3 x4 x5 x6) (val_main_v21 (F := F) x1) (val_main_v22 (F := F) x1) (val_main_v24 (F := F) x2 x3 x4 x5 x6) := rfl

/-! ## The first layer's sum -/

theorem rowStart : val_main_v55 (F := F) x1 = startCol (val_main_v21 (F := F) x1) := rfl
theorem layer1 : val_main_v62 (F := F) x0 x1 x2 x3 x4 x5 x6 x7 =
    aggByNorm128 (val_main_v49 (F := F) x0 x7) (val_main_v32 (F := F) x1 x2 x3 x4 x5 x6) (val_main_v21 (F := F) x1) (val_main_v22 (F := F) x1) (val_main_v24 (F := F) x2 x3 x4 x5 x6) := rfl

/-! ## The edge side again, second layer: the same stages -/

theorem srcLoops' : val_main_v68 (F := F) x1 = val_main_v21 (F := F) x1 := rfl
theorem tgtLoops' : val_main_v69 (F := F) x1 = val_main_v22 (F := F) x1 := rfl
theorem unitLoops' : val_main_v71 (F := F) x2 x3 x4 x5 x6 = val_main_v24 (F := F) x2 x3 x4 x5 x6 := rfl
theorem dinv' : val_main_v79 (F := F) x1 x2 x3 x4 x5 x6 = val_main_v32 (F := F) x1 x2 x3 x4 x5 x6 := rfl
theorem norm' : val_main_v95 (F := F) x1 x2 x3 x4 x5 x6 = val_main_v48 (F := F) x1 x2 x3 x4 x5 x6 := rfl

/-! ## The second layer's sum and the output bias -/

theorem layer2 : val_main_v109 (F := F) x0 x1 x2 x3 x4 x5 x6 x7 x8 x9 =
    aggByNorm40 (val_main_v96 (F := F) x0 x1 x2 x3 x4 x5 x6 x7 x8 x9) (val_main_v32 (F := F) x1 x2 x3 x4 x5 x6) (val_main_v21 (F := F) x1) (val_main_v22 (F := F) x1) (val_main_v24 (F := F) x2 x3 x4 x5 x6) := rfl
theorem output : val_main_v112 (F := F) x0 x1 x2 x3 x4 x5 x6 x7 x8 x9 x10 = addBias40 (val_main_v109 (F := F) x0 x1 x2 x3 x4 x5 x6 x7 x8 x9) x10 := rfl

end Cert.Gcn.Ref

end
-- ==== Proof.TakeMask.lean ====
/-
  The row words of a lookup in filling mode, and why the in-range mask is all ones.

  The edge table's row 0 holds 1600000 words; appended to them are the self-loop words 0 … 49999. A lookup turns a
  word w into a start row: w itself when w ≥ 0, w + 50000 when w < 0 (a negative word counts from the end). The
  in-range mask says, per word, whether the start row lies in [0, 49999]; where it does not, the lookup returns a fill.
  If every word of row 0 lies in [-50000, 50000) read signed, every start row lies in [0, 49999]: a nonnegative word
  is below 50000 already, a negative one is at least -50000 and moves up by 50000, and a self-loop word is a row
  number. So the mask is all ones and the select by the mask returns the looked-up rows.
-/
import proofs.«403854_j52819507806473_3_alg».proof.Proof.Gen.KernelIdeal
import Idealize.ShloMosaic.Lib.ValueIdx
import Idealize.ShloMosaic.Lib.Pipeline.Value
import Idealize.ShloMosaic.Lib.Affine
import Idealize.ShloMosaic.PureOps.Reduce

noncomputable section

namespace Cert.Gcn.Mask

open Cert.KernelIdeal Cert.KernelIdeal.Gen Idealize.ShloMosaic Idealize.ShloMosaic.ValueIdx

/-! ## The three operations -/

/-- Row 0 of the edge table followed by the self-loop words 0 … 49999. -/
def rowWords (a1 : IVec S2x1600000 32) : IVec S1650000 32 :=
  concatenate S1650000 0 [⟨S1600000, shapeCast S1600000 (extractStridedSlice S1x1600000 ![0, 0] a1 slices_S2x1600000_S1x1600000_0_0) shapeCasts_S1x1600000_S1600000⟩, ⟨S50000, iotaInDim S50000 32 0⟩] concatenates_S1600000_S50000_S1650000_d0

/-- The start rows as a column: a negative word counts from the end. -/
def startCol (v : IVec S1650000 32) : IVec S1650000x1 32 :=
  broadcastInDim S1650000x1 ![0] bcast_S1650000_S1650000x1_0 (select (cmpi .slt v (broadcastInDim S1650000 ![] bcast_S_S1650000 (constantI S_ 32 0#32))) (addi v (broadcastInDim S1650000 ![] bcast_S_S1650000 (constantI S_ 32 50000#32))) v)

/-- Which start rows are row numbers 0 … 49999 (the reduction runs over the column's one entry). -/
def inRows (I : IVec S1650000x1 32) : IVec S1650000 1 :=
  Host.reduce IntOp.andi (andi (cmpi .sge I (broadcastInDim S1650000x1 ![] bcast_S_S1650000x1 (constantI S_ 32 0#32))) (cmpi .sle I (broadcastInDim S1650000x1 ![0, 1] bcast_S1x1_S1650000x1_0_1 (broadcastInDim S1x1 ![1] bcast_S1_S1x1_1 (constantI S1 32 49999#32))))) (constantI S_ 1 1#1) reducesTo_S1650000x1_S1650000_d1 h_S_

/-! ## Words -/

/-- A word in [-50000, 50000), moved up by 50000 when negative, lies in [0, 49999]. -/
theorem wrap_range (w : BitVec 32) (h : -50000 ≤ w.toInt ∧ w.toInt < 50000) :
    0 ≤ (Scalar.select (IntOp.cmpi .slt w 0#32) (IntOp.addi w 50000#32) w).toInt
      ∧ (Scalar.select (IntOp.cmpi .slt w 0#32) (IntOp.addi w 50000#32) w).toInt ≤ 49999 := by
  have h0 : (0#32 : BitVec 32).toInt = 0 := by decide
  have h5 : (50000#32 : BitVec 32).toInt = 50000 := by decide
  by_cases hn : w.toInt < 0
  · have hc : IntOp.cmpi .slt w 0#32 = 1#1 := IntOp.cmpi_slt.mpr (by rw [h0]; exact hn)
    rw [hc, select_one]
    have hs : (IntOp.addi w 50000#32).toInt = w.toInt + 50000 := by
      show (w + 50000#32).toInt = _
      rw [BitVec.toInt_add, h5]
      exact Int.bmod_eq_of_le (by omega) (by omega)
    rw [hs]; omega
  · have hc : ¬IntOp.cmpi .slt w 0#32 = 1#1 := fun hc => hn (by have := IntOp.cmpi_slt.mp hc; rw [h0] at this; exact this)
    rw [eq_zero_of_ne_one hc, select_zero]; omega

/-! ## The row words read at an index -/

/-- Entry e of the table's row 0, as the slice and reshape read it. -/
theorem row0_apply (a1 : IVec S2x1600000 32) (e : Fin 1600000) :
    shapeCast S1600000 (extractStridedSlice S1x1600000 ![0, 0] a1 slices_S2x1600000_S1x1600000_0_0) shapeCasts_S1x1600000_S1600000 (ix1 e)
      = a1 (ix2 0 e) := by
  refine (shapeCast_apply _ shapeCasts_S1x1600000_S1600000 (ix1 e) (ix2 (0 : Fin 1) e) ?_).trans ?_
  · rw [Shape.rowMajor_val_two, Shape.rowMajor_val_one]
    show 0 * 1600000 + e.val = e.val
    omega
  · exact extractStridedSlice_apply ![0, 0] a1 slices_S2x1600000_S1x1600000_0_0 (ix2 (0 : Fin 1) e) (ix2 (0 : Fin 2) e)
      (fun a => match a with
        | ⟨0, _⟩ => by show (0 : Nat) = 0 + 0; rfl
        | ⟨1, _⟩ => by show e.val = 0 + e.val; omega)

/-- Every row word lies in [-50000, 50000) when the table's row 0 does: the appended words are 0 … 49999. -/
theorem rowWords_range (a1 : IVec S2x1600000 32)
    (h : ∀ e : Fin 1600000, -50000 ≤ (a1 (ix2 0 e)).toInt ∧ (a1 (ix2 0 e)).toInt < 50000) (e : Fin 1650000) :
    -50000 ≤ (rowWords a1 (ix1 e)).toInt ∧ (rowWords a1 (ix1 e)).toInt < 50000 := by
  unfold rowWords
  by_cases he : e.val < 1600000
  · rw [concatenate_pair_apply_left (0 : Fin S1650000.rank) _ _ concatenates_S1600000_S50000_S1650000_d0 (ix1 e) rfl (ix1 ⟨e.val, he⟩)
      (fun b => match b with | ⟨0, _⟩ => rfl), row0_apply]
    exact h ⟨e.val, he⟩
  · have hlt : e.val - 1600000 < 50000 := by have := e.isLt; omega
    rw [concatenate_pair_apply_right (0 : Fin S1650000.rank) _ _ concatenates_S1600000_S50000_S1650000_d0 (ix1 e) rfl rfl (ix1 ⟨e.val - 1600000, hlt⟩)
      (fun b hb => absurd (Fin.ext (by have hbl : b.val < 1 := b.isLt; show b.val = 0; omega)) hb)
      (by show e.val - 1600000 + 1600000 = e.val; omega)]
    show -50000 ≤ (BitVec.ofNat 32 (e.val - 1600000)).toInt ∧ (BitVec.ofNat 32 (e.val - 1600000)).toInt < 50000
    have ht : (BitVec.ofNat 32 (e.val - 1600000)).toInt = ((e.val - 1600000 : Nat) : Int) := by
      rw [BitVec.toInt_ofNat']
      exact Int.bmod_eq_of_le (by omega) (by omega)
    rw [ht]; omega

/-! ## The start rows are row numbers -/

theorem startCol_range (a1 : IVec S2x1600000 32)
    (h : ∀ e : Fin 1600000, -50000 ≤ (a1 (ix2 0 e)).toInt ∧ (a1 (ix2 0 e)).toInt < 50000) (e : Fin 1650000) :
    0 ≤ (startCol (rowWords a1) (ix2 e 0)).toInt ∧ (startCol (rowWords a1) (ix2 e 0)).toInt ≤ 49999 := by
  have hr : startCol (rowWords a1) (ix2 e 0)
      = Scalar.select (IntOp.cmpi .slt (rowWords a1 (ix1 e)) 0#32) (IntOp.addi (rowWords a1 (ix1 e)) 50000#32) (rowWords a1 (ix1 e)) := by
    unfold startCol
    exact broadcastInDim_apply ![0] bcast_S1650000_S1650000x1_0 _ (ix2 e 0) (ix1 e)
      (fun a => match a with | ⟨0, _⟩ => by show e.val = if (1650000 : Nat) = 1 then 0 else e.val; rw [if_neg (by omega)])
  rw [hr]
  exact wrap_range _ (rowWords_range a1 h e)

/-! ## The mask is all ones -/

/-- A left fold by `and` from 1 over bits that are all 1 is 1. -/
theorem foldl_andi_ones {ι : Type} (g : ι → BitVec 1) (hg : ∀ n, g n = 1#1) :
    ∀ l : List ι, l.foldl (fun r n => IntOp.andi r (g n)) 1#1 = 1#1
  | [] => rfl
  | a :: l => by
    rw [List.foldl_cons, hg a]
    exact foldl_andi_ones g hg l

theorem inRows_ones (I : IVec S1650000x1 32)
    (hI : ∀ e : Fin 1650000, 0 ≤ (I (ix2 e 0)).toInt ∧ (I (ix2 e 0)).toInt ≤ 49999) : inRows I = fun _ => 1#1 := by
  funext j
  unfold inRows
  rw [Host.reduce_eq_foldl]
  refine foldl_andi_ones _ (fun i => ?_) _
  have h0 : (0#32 : BitVec 32).toInt = 0 := by decide
  have h4 : (49999#32 : BitVec 32).toInt = 49999 := by decide
  have hi : i = ix2 (i 0) 0 := by
    funext a
    match a with
    | ⟨0, _⟩ => rfl
    | ⟨1, _⟩ => exact Fin.ext (by have hl := idx2_lt1 i; show (i 1).val = 0; omega)
  have key : I i = I (ix2 (i 0) 0) := congrArg I hi
  obtain ⟨hlo, hhi⟩ := hI (i 0)
  refine IntOp.andi_eq_one.mpr ⟨IntOp.cmpi_sge.mpr ?_, IntOp.cmpi_sle.mpr ?_⟩
  · show (0#32 : BitVec 32).toInt ≤ (I i).toInt
    rw [h0, key]; exact hlo
  · show (I i).toInt ≤ (49999#32 : BitVec 32).toInt
    rw [h4, key]; exact hhi

/-- A select by an all-ones mask spread over the features returns its first operand. -/
theorem select_ones {S : Shape} {φ : FTy} {dims : Fin S1650000.rank → Fin S.rank} (hb : S1650000.BroadcastsInDim S dims)
    (g f : FVec Ideal S φ) :
    select (broadcastInDim S dims hb (fun _ : S1650000.Idx => (1#1 : BitVec 1))) g f = g := by
  funext i
  show Scalar.select 1#1 (g i) (f i) = g i
  exact select_one _ _

end Cert.Gcn.Mask

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.Messages.lean ====
/-
  One layer's messages, grouped two ways, are the same array.

  Along edge e with source row j (the start word of e, read signed and clamped into the rows) and feature q, one
  grouping first scales every row of H by its node's normaliser d and multiplies the looked-up row by the edge's
  w(e) · dc(e), dc(e) being d looked up at the edge's target:
      (H(j, q) · d(j)) · (w(e) · dc(e)),
  the other multiplies the looked-up row of H by the whole symmetric normaliser of the edge:
      H(j, q) · ((d(j) · w(e)) · dc(e)).
  The product of extended reals is associative, so the two agree entry by entry, whatever the values. The row lookup
  with a fill is the plain row lookup once the in-range mask is all ones. Both lookups through the source column (of
  the rows of H, and of d) read the same clamped start word.
-/
import proofs.«403854_j52819507806473_3_alg».proof.Proof.Stages
import proofs.«403854_j52819507806473_3_alg».proof.Proof.TakeMask
import proofs.«403854_j52819507806473_3_alg».proof.Proof.LibRowGatherScatter
import Idealize.ShloMosaic.Lib.ValueIdx
import Idealize.ShloMosaic.Lib.StableHlo.Predicate
import Idealize.ShloMosaic.PureOps.Ideal

noncomputable section

namespace Cert.Gcn

open Cert.KernelIdeal Cert.KernelIdeal.Gen Idealize.ShloMosaic Idealize.ShloMosaic.ValueIdx
open Cert.ReferenceIdeal.Hand (rowGather rowGather_apply bcastCol_apply bcastFeat_apply)

/-! ## Index forms -/

/-- The rank-1 index at k, in its two spellings. -/
theorem ofFin_eq_ix1 {n : Nat} (k : Fin n) : Shape.Idx.ofFin k = ix1 k := by
  funext a
  match a with
  | ⟨0, _⟩ => exact Fin.ext rfl

/-- Row p of a column, in its two spellings. -/
theorem ixP_eq_ix2 {n : Nat} (p : Fin n) : StableHlo.Predicate.ixP p = ix2 p (0 : Fin 1) := by
  funext a
  match a with
  | ⟨0, _⟩ => rfl
  | ⟨1, _⟩ => rfl

/-! ## The lookup of a node vector at a column of start words -/

/-- Entry e of a node vector looked up at a column of start words: the vector at the clamped signed start word of e,
    the same row the row lookup of a table reads for e. -/
theorem take_apply {α : Type} {N E : Nat} (g : GatherDims ⟨1, ![N]⟩ ⟨2, ![E, 1]⟩ ⟨1, ![E]⟩)
    (hcoll : g.collapsedSliceDims = [0]) (hob : g.operandBatchingDims = [])
    (hsim : g.startIndexMap = [0]) (hivd : g.indexVectorDim = 1)
    (x : (⟨1, ![N]⟩ : Shape).Idx → α) (I : IVec ⟨2, ![E, 1]⟩ 32) (e : Fin E) (hN : 0 < N) :
    Host.gather g x I (ix1 e) = x (ix1 ⟨min (I (ix2 e 0)).toInt.toNat (N - 1), by omega⟩) := by
  rw [← ofFin_eq_ix1, StableHlo.Predicate.gather_take g hcoll hob hsim hivd x I e hN, ofFin_eq_ix1]
  refine congrArg x (congrArg ix1 (Fin.ext ?_))
  show min (I (StableHlo.Predicate.ixP e)).toInt.toNat (N - 1) = min (I (ix2 e 0)).toInt.toNat (N - 1)
  rw [ixP_eq_ix2]

/-! ## The two groupings, at any extents -/

/-- Rows of H scaled by d, looked up, times w · dc, against rows of H looked up times (d looked up · w) · dc. -/
theorem messages_core {N E D : Nat} (hN : 0 < N)
    (wf : GatherDims.WF ⟨2, ![N, D]⟩ ⟨2, ![E, 1]⟩ ⟨2, ![E, D]⟩ [1] [0] [] [0] [] 1 ![1, D])
    (g : GatherDims ⟨1, ![N]⟩ ⟨2, ![E, 1]⟩ ⟨1, ![E]⟩)
    (hcoll : g.collapsedSliceDims = [0]) (hob : g.operandBatchingDims = [])
    (hsim : g.startIndexMap = [0]) (hivd : g.indexVectorDim = 1)
    (hNc : (⟨1, ![N]⟩ : Shape).BroadcastsInDim ⟨2, ![N, 1]⟩ ![0])
    (hNf : (⟨2, ![N, 1]⟩ : Shape).BroadcastsInDim ⟨2, ![N, D]⟩ ![0, 1])
    (hEc : (⟨1, ![E]⟩ : Shape).BroadcastsInDim ⟨2, ![E, 1]⟩ ![0])
    (hEf : (⟨2, ![E, 1]⟩ : Shape).BroadcastsInDim ⟨2, ![E, D]⟩ ![0, 1])
    (H : FVec Ideal ⟨2, ![N, D]⟩ .f32) (d : FVec Ideal ⟨1, ![N]⟩ .f32) (I : IVec ⟨2, ![E, 1]⟩ 32)
    (w dc : FVec Ideal ⟨1, ![E]⟩ .f32) :
    mulf (Host.gather (rowGather N E D wf) (mulf H (broadcastInDim ⟨2, ![N, D]⟩ ![0, 1] hNf (broadcastInDim ⟨2, ![N, 1]⟩ ![0] hNc d))) I)
        (broadcastInDim ⟨2, ![E, D]⟩ ![0, 1] hEf (broadcastInDim ⟨2, ![E, 1]⟩ ![0] hEc (mulf w dc)))
      = mulf (Host.gather (rowGather N E D wf) H I)
        (broadcastInDim ⟨2, ![E, D]⟩ ![0, 1] hEf (broadcastInDim ⟨2, ![E, 1]⟩ ![0] hEc (mulf (mulf (Host.gather g d I) w) dc))) := by
  funext i
  obtain ⟨e, q, rfl⟩ : ∃ e q, i = ix2 e q := ⟨i 0, i 1, eq_ix2 i⟩
  rw [mulf_apply, mulf_apply, rowGather_apply hN wf, rowGather_apply hN wf, bcastFeat_apply, bcastFeat_apply,
    bcastCol_apply, bcastCol_apply, mulf_apply, mulf_apply, mulf_apply, mulf_apply, bcastFeat_apply, bcastCol_apply,
    take_apply g hcoll hob hsim hivd d I e hN]
  rw [mul_assoc, mul_assoc]

/-! ## The two widths -/

theorem messages128 (H : FVec Ideal S50000x128 .f32) (d : FVec Ideal S50000 .f32) (rf cf : IVec S1650000 32)
    (w : FVec Ideal S1650000 .f32) (hrows : inRows (startCol rf) = fun _ => 1#1) :
    mulf (rowsOrFill128 (scaleRows128 H d) rf) (spread128 (scaleByTarget d cf w))
      = mulf (rows128 H rf) (spread128 (symNorm d rf cf w)) := by
  unfold rowsOrFill128
  rw [hrows, Mask.select_ones]
  exact messages_core (N := 50000) (E := 1650000) (D := 128) (by omega)
    gather_S50000x128_S1650000x1_S1650000x128_1_0_n_n_0_1_1128_wf
    gather_S50000_S1650000x1_S1650000_n_0_n_n_0_1_1 rfl rfl rfl rfl
    bcast_S50000_S50000x1_0 bcast_S50000x1_S50000x128_0_1 bcast_S1650000_S1650000x1_0 bcast_S1650000x1_S1650000x128_0_1
    H d (startCol rf) w (lookup d cf)

theorem messages40 (H : FVec Ideal S50000x40 .f32) (d : FVec Ideal S50000 .f32) (rf cf : IVec S1650000 32)
    (w : FVec Ideal S1650000 .f32) (hrows : inRows (startCol rf) = fun _ => 1#1) :
    mulf (rowsOrFill40 (scaleRows40 H d) rf) (spread40 (scaleByTarget d cf w))
      = mulf (rows40 H rf) (spread40 (symNorm d rf cf w)) := by
  unfold rowsOrFill40
  rw [hrows, Mask.select_ones]
  exact messages_core (N := 50000) (E := 1650000) (D := 40) (by omega)
    gather_S50000x40_S1650000x1_S1650000x40_1_0_n_n_0_1_140_wf
    gather_S50000_S1650000x1_S1650000_n_0_n_n_0_1_1 rfl rfl rfl rfl
    bcast_S50000_S50000x1_0 bcast_S50000x1_S50000x40_0_1 bcast_S1650000_S1650000x1_0 bcast_S1650000x1_S1650000x40_0_1
    H d (startCol rf) w (lookup d cf)

end Cert.Gcn

end
-- ==== Proof.RowRange.lean ====
/-
  What the precondition says of the edge table's row 0.

  The precondition is one conjunction: every float input is finite, and, last, every word of row 0 of the edge
  table lies in [-50000, 50000) read signed. The last conjunct is a reduction by `and`, from 1, of the
  elementwise `and` of two signed comparisons of row 0 with the constants -50000 (the word 4294917296) and 50000. A
  conjunction that is 1 has every conjunct 1; a reduction by `and` that is 1 met only ones; a comparison that is 1
  says its inequality of the words read signed; and row 0 as the slice and reshape read it is the table's own
  entry (0, e).
-/
import proofs.«403854_j52819507806473_3_alg».proof.Defs
import proofs.«403854_j52819507806473_3_alg».proof.Proof.Gen.Pre_finite_inputs
import Idealize.ShloMosaic.Lib.ValueIdx
import Idealize.ShloMosaic.Lib.Pipeline.Value
import Idealize.ShloMosaic.Lib.Affine
import Idealize.ShloMosaic.Lib.ReduceAll

noncomputable section

namespace Cert.Gcn.Mask

open Idealize.ShloMosaic Idealize.ShloMosaic.ValueIdx Idealize.SL.Sem

/-- The scalar shape has one index. -/
instance : Subsingleton Cert.Pre_finite_inputs.S_.Idx := ⟨fun a b => funext fun d => d.elim0⟩

section Words
open Cert.Pre_finite_inputs Cert.Pre_finite_inputs.Gen

/-- Entry e of the table's row 0, as the precondition's slice and reshape read it. -/
theorem pre_row0_apply (a1 : IVec S2x1600000 32) (e : Fin 1600000) :
    shapeCast S1600000 (extractStridedSlice S1x1600000 ![0, 0] a1 slices_S2x1600000_S1x1600000_0_0) shapeCasts_S1x1600000_S1600000 (ix1 e)
      = a1 (ix2 0 e) := by
  refine (shapeCast_apply _ shapeCasts_S1x1600000_S1600000 (ix1 e) (ix2 (0 : Fin 1) e) ?_).trans ?_
  · rw [Shape.rowMajor_val_two, Shape.rowMajor_val_one]
    show 0 * 1600000 + e.val = e.val
    omega
  · exact extractStridedSlice_apply ![0, 0] a1 slices_S2x1600000_S1x1600000_0_0 (ix2 (0 : Fin 1) e) (ix2 (0 : Fin 2) e)
      (fun a => match a with
        | ⟨0, _⟩ => by show (0 : Nat) = 0 + 0; rfl
        | ⟨1, _⟩ => by show e.val = 0 + e.val; omega)

/-- The last conjunct of the precondition, read at one word of row 0. -/
theorem part3_range {F : FTy → Type} [FloatOps F] (a1 : IVec S2x1600000 32) (p : IVec S_ 1)
    (h : fn_part3 (F := F) a1 p
        (shapeCast S1600000 (extractStridedSlice S1x1600000 ![0, 0] a1 slices_S2x1600000_S1x1600000_0_0) shapeCasts_S1x1600000_S1600000)
        (constantI S_ 32 4294917296#32) ix0 = 1#1)
    (e : Fin 1600000) : -50000 ≤ (a1 (ix2 0 e)).toInt ∧ (a1 (ix2 0 e)).toInt < 50000 := by
  dsimp only [fn_part3] at h
  have hall := (IntOp.andi_eq_one.mp h).2
  have hel := Host.reduce_andi_all _ _ _ _ ix0 hall (ix1 e)
  obtain ⟨hge, hlt⟩ := IntOp.andi_eq_one.mp hel
  have hge' := IntOp.cmpi_sge.mp hge
  have hlt' := IntOp.cmpi_slt.mp hlt
  rw [pre_row0_apply] at hge' hlt'
  have hm : (4294917296#32 : BitVec 32).toInt = -50000 := by decide
  have h5 : (50000#32 : BitVec 32).toInt = 50000 := by decide
  exact ⟨by have := hge'; rw [show (broadcastInDim S1600000 ![] bcast_S_S1600000 (constantI S_ 32 4294917296#32) (ix1 e)) = 4294917296#32 from rfl, hm] at this; exact this,
    by have := hlt'; rw [show (broadcastInDim S1600000 ![] bcast_S_S1600000 (constantI S_ 32 50000#32) (ix1 e)) = 50000#32 from rfl, h5] at this; exact this⟩

end Words

/-- Under the precondition every word of row 0 of the edge table lies in [-50000, 50000) read signed. -/
theorem row_range (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 1600000) :
    -50000 ≤ ((m ((c.tc : Thread Cert.KernelIdeal.nD Cert.KernelIdeal.τ).loc Cert.KernelIdeal.main_arg1) : IVec Cert.KernelIdeal.S2x1600000 32) (ix2 0 e)).toInt
      ∧ ((m ((c.tc : Thread Cert.KernelIdeal.nD Cert.KernelIdeal.τ).loc Cert.KernelIdeal.main_arg1) : IVec Cert.KernelIdeal.S2x1600000 32) (ix2 0 e)).toInt < 50000 := by
  have h := congrFun (hpre c) ix0
  dsimp only [Cert.Pre_finite_inputs.fn, Cert.Pre_finite_inputs.fn_part1, Cert.Pre_finite_inputs.fn_part2] at h
  exact part3_range _ _ h e

end Cert.Gcn.Mask

end
-- ==== Proof.EdgeRef.lean ====
/-
  The reference's edge perceptron is the column of edge weights.

  The reference computes, over all the edges at once, the feature array times the first weight matrix, adds the first bias
  broadcast along the rows, rectifies, multiplies by the second weight column, adds the second bias, negates, exponentiates,
  adds one and divides one by the result: read at edge `e` this is the logistic function of the score of feature row `e`.
  The biases enter the reference as vectors broadcast to rows; the column of edge weights takes them as one-row arrays, the
  vector recast as a row, and the two read the same entry.
-/
import proofs.«403854_j52819507806473_3_alg».proof.Proof.Gen.ReferenceIdeal.Read
import proofs.«403854_j52819507806473_3_alg».proof.Proof.EdgeSpec
import Idealize.ShloMosaic.Lib.ValueIdx
import Idealize.ShloMosaic.Lib.ValueLayout
import Idealize.ShloMosaic.Lib.IdealHost
import Idealize.ShloMosaic.PureOps.Ideal.Laws

noncomputable section

namespace Cert.Gcn.Edge

open Cert.ReferenceIdeal Cert.ReferenceIdeal.Read
open Idealize.ShloMosaic Idealize.ShloMosaic.ValueIdx
open scoped BigOperators

/-- The reference's hidden layer at `(e, k)`: hidden unit `k` on feature row `e`, the first bias read off the vector
    recast as a row. -/
theorem ref_hidden_apply (x2 : FVec Ideal S1600000x16 .f32) (x3 : FVec Ideal S16x32 .f32) (x4 : FVec Ideal S32 .f32)
    (h4 : S32.ShapeCasts S1x32) (e : Fin 1600000) (k : Fin 32) :
    val_main_v8 (F := Ideal) x2 x3 x4 (ix2 e k)
      = hiddenUnit (fun j => x2 (ix2 e j)) x3 (shapeCast S1x32 x4 h4) k := by
  have el : ∀ j : Fin 16, lidx_main_v4 (ix2 e k) j = ix2 e j := fun j =>
    funext fun a => match a with | ⟨0, _⟩ => rfl | ⟨1, _⟩ => rfl
  have er : ∀ j : Fin 16, ridx_main_v4 (ix2 e k) j = ix2 j k := fun j =>
    funext fun a => match a with | ⟨0, _⟩ => rfl | ⟨1, _⟩ => rfl
  have eb : idx_main_v5 (idx_main_v6 (ix2 e k)) = ix1 k :=
    funext fun a => match a with | ⟨0, _⟩ => rfl
  unfold hiddenUnit
  rw [val_main_v8_apply, val_main_v7_apply, val_main_v4_apply, val_main_v6_apply, val_main_v5_apply,
    val_main_call0_v0_apply, val_main_call0_cst_apply, shapeCast_a_1a_apply, eb]
  simp only [el, er]
  show max _ (Ideal.ofBits .f32 0x00000000#32) = _
  rw [Ideal.ofBits_zero_f32]
  rfl

/-- The reference's stage for the edge perceptron is the column of edge weights of its five arguments, the two bias
    vectors recast as rows. -/
theorem ref_edgeWeight (x2 : FVec Ideal S1600000x16 .f32) (x3 : FVec Ideal S16x32 .f32) (x4 : FVec Ideal S32 .f32)
    (x5 : FVec Ideal S32x1 .f32) (x6 : FVec Ideal S1 .f32) (h4 : S32.ShapeCasts S1x32) (h6 : S1.ShapeCasts S1x1) :
    val_main_v18 (F := Ideal) x2 x3 x4 x5 x6
      = edgeWeight x2 x3 (shapeCast S1x32 x4 h4) x5 (shapeCast S1x1 x6 h6) := by
  funext i
  obtain ⟨e, z, rfl⟩ : ∃ (e : Fin 1600000) (z : Fin 1), i = ix2 e z := ⟨i 0, i 1, eq_ix2 i⟩
  obtain rfl : z = 0 := Subsingleton.elim _ _
  have el : ∀ k : Fin 32, lidx_main_v9 (ix2 e 0) k = ix2 e k := fun k =>
    funext fun a => match a with | ⟨0, _⟩ => rfl | ⟨1, _⟩ => rfl
  have er : ∀ k : Fin 32, ridx_main_v9 (ix2 e 0) k = ix2 k 0 := fun k =>
    funext fun a => match a with | ⟨0, _⟩ => rfl | ⟨1, _⟩ => rfl
  have eb : idx_main_v10 (idx_main_v11 (ix2 e 0)) = ix1 0 :=
    funext fun a => match a with | ⟨0, _⟩ => rfl
  rw [edgeWeight_apply, rowWeight_eq, shapeCast_a_1a_apply]
  rw [val_main_v18_apply, val_main_v17_apply, val_main_cst_0_apply, val_main_v16_apply, val_main_v15_apply,
    val_main_cst_apply, val_main_v14_apply, val_main_v13_apply, val_main_v12_apply, val_main_v9_apply,
    val_main_v11_apply, val_main_v10_apply, eb]
  simp only [el, er, ref_hidden_apply x2 x3 x4 h4]
  show Ideal.div (Ideal.ofBits .f32 0x3F800000#32) (Ideal.ofBits .f32 0x3F800000#32 + Ideal.exp (-(_ + _))) = _
  rw [Ideal.ofBits_one_f32]
  rfl

end Cert.Gcn.Edge

end
-- ==== Proof.Proj1Ref.lean ====
/- The reference's projection stage is the matrix product `proj1`: its dot_general, read at an index, is the sum
   over the contracted axis of the left operand at (row, k) times the right operand at (k, column). -/
import proofs.«403854_j52819507806473_3_alg».proof.Proof.Gen.ReferenceIdeal.Read
import proofs.«403854_j52819507806473_3_alg».proof.Proof.Proj1Spec

noncomputable section

open scoped BigOperators

namespace Cert.Gcn.Proj1

open Idealize.ShloMosaic Idealize.ShloMosaic.ValueIdx

/-- The left operand's index at output index `i` and contraction coordinate `k` is (row of `i`, `k`). -/
theorem ref_lidx (i : Cert.ReferenceIdeal.S50000x128.Idx) (k : Fin 128) :
    Cert.ReferenceIdeal.Read.lidx_main_v49 i k = ix2 (i 0) k :=
  funext fun a => Fin.ext (by match a with | ⟨0, _⟩ => rfl | ⟨1, _⟩ => rfl)

/-- The right operand's index there is (`k`, column of `i`). -/
theorem ref_ridx (i : Cert.ReferenceIdeal.S50000x128.Idx) (k : Fin 128) :
    Cert.ReferenceIdeal.Read.ridx_main_v49 i k = ix2 k (i 1) :=
  funext fun a => Fin.ext (by match a with | ⟨0, _⟩ => rfl | ⟨1, _⟩ => rfl)

/-- The reference's `dot_general` of the features with the first layer's weights is `proj1`. -/
theorem ref_proj1 (x0 : FVec Ideal Cert.ReferenceIdeal.S50000x128 .f32) (x7 : FVec Ideal Cert.ReferenceIdeal.S128x128 .f32) :
    Cert.ReferenceIdeal.Read.val_main_v49 (F := Ideal) x0 x7 = proj1 x0 x7 := by
  funext i
  rw [Cert.ReferenceIdeal.Read.val_main_v49_apply]
  show _ = ∑ k : Fin 128, x0 (ix2 (i 0) k) * x7 (ix2 k (i 1))
  refine Finset.sum_congr rfl fun k _ => ?_
  rw [ref_lidx, ref_ridx]
  rfl

end Cert.Gcn.Proj1

end
-- ==== Proof.Proj2Ref.lean ====
/-
  The reference's last matrix product is the projection.

  The host program forms the second layer's logits as a `dot_general` of `max (A + bias, 0)` with the weight matrix,
  where the bias vector (128 entries) has been laid along a row and then along all 50000 rows, and the zero is a
  scalar laid over the whole array. Read at an entry (p, q) the product is the sum over the one contracted axis of the
  left operand at (p, k) times the right operand at (k, q); the left operand there is `max (A (p, k) + bias k) 0`,
  because both broadcasts read their operand at the column coordinate alone. The bias vector recast as a single row
  has the same entry at (0, k). This is the projection of `A`, the bias row and the weights, entry by entry, for
  ANY array `A` in the first operand's place.
-/
import proofs.«403854_j52819507806473_3_alg».proof.Proof.Gen.ReferenceIdeal.Read
import proofs.«403854_j52819507806473_3_alg».proof.Proof.Proj2Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Proj2

open Cert.ReferenceIdeal Cert.ReferenceIdeal.Read Idealize.ShloMosaic Idealize.ShloMosaic.ValueIdx Idealize.ShloMosaic.TcCoe Idealize.SL.Sem

/-- The bias laid along every row, read at (p, k), is the bias vector at k: the row broadcast keeps the column
    coordinate and the vector-to-row broadcast reads it. -/
theorem bias_rows_index (p : Fin 50000) (k : Fin 128) : idx_main_v63 (idx_main_v64 (ix2 p k)) = ix1 k :=
  funext fun a => Fin.ext (by match a with | ⟨0, _⟩ => rfl)

/-- The host's product of `max (A + bias rows, 0)` with the weights is the projection of `A`, the bias as one row, and
    the weights. -/
theorem ref_proj2 (A : FVec Ideal S50000x128 .f32) (x8 : FVec Ideal S128 .f32) (x9 : FVec Ideal S128x40 .f32)
    (h : S128.ShapeCasts S1x128) :
    Host.dotGeneral dot_S50000x128_S128x40_S50000x40_1_0_0_1_n_n none
        (maximumf (addf A (val_main_v64 (F := Ideal) x8)) (val_main_call2_v0 (F := Ideal))) x9
      = proj2 A (shapeCast S1x128 x8 h) x9 := by
  funext i
  -- the right side at the entry whose coordinates are i's
  rw [proj2_apply_of_val A (shapeCast S1x128 x8 h) x9 i ⟨(i 0).val, (i 0).isLt⟩ ⟨(i 1).val, (i 1).isLt⟩ rfl rfl]
  -- the product at an entry: a sum over the contraction index, re-indexed by its one coordinate
  generalize hy : maximumf (addf A (val_main_v64 (F := Ideal) x8)) (val_main_call2_v0 (F := Ideal)) = y
  simp only [Host.dotGeneral]
  rw [Ideal.dotGeneral_apply, ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  -- the operands' indices at contraction coordinate k are (p, k) and (k, q)
  have el : dot_S50000x128_S128x40_S50000x40_1_0_0_1_n_n.lhsIdx i ((contrEquiv1 dot_S50000x128_S128x40_S50000x40_1_0_0_1_n_n 128 rfl rfl).symm k)
      = ix2 (⟨(i 0).val, (i 0).isLt⟩ : Fin 50000) k := funext fun a => Fin.ext (by
    match a with
    | ⟨0, _⟩ => exact lhs_main_v96_0 _ _
    | ⟨1, _⟩ => exact (lhs_main_v96_1 _ _).trans hk)
  have er : dot_S50000x128_S128x40_S50000x40_1_0_0_1_n_n.rhsIdx i ((contrEquiv1 dot_S50000x128_S128x40_S50000x40_1_0_0_1_n_n 128 rfl rfl).symm k)
      = ix2 k (⟨(i 1).val, (i 1).isLt⟩ : Fin 40) := funext fun a => Fin.ext (by
    match a with
    | ⟨0, _⟩ => exact (rhs_main_v96_0 _ _).trans hk
    | ⟨1, _⟩ => exact rhs_main_v96_1 _ _)
  rw [el, er]
  subst hy
  -- the left operand at (p, k): pointwise maximum and sum, the two broadcasts, the zero scalar; the bias row at (0, k)
  rw [maximumf_apply, addf_apply, val_main_v64_apply, val_main_v63_apply, val_main_call2_v0_apply,
    val_main_call2_cst_apply, shapeCast_a_1a_apply x8 h 0 k, bias_rows_index]
  exact congrArg (fun z : EReal => max ((A (ix2 (⟨(i 0).val, (i 0).isLt⟩ : Fin 50000) k) : EReal) + x8 (ix1 k)) z
    * x9 (ix2 k (⟨(i 1).val, (i 1).isLt⟩ : Fin 40))) Ideal.ofBits_zero_f32

end Cert.Gcn.Proj2

end
-- ==== Proof.Bridge.lean ====
/-
  The two groupings of a layer agree, and the reference's result is the kernel's function of the arguments.

  With every source word a row number (after the count from the end), the looked-up scaled rows are the scaled
  looked-up rows, and at each edge and feature
      (H(s,q) · dinv(s)) · (w · dinv(t)) = H(s,q) · ((dinv(s) · w) · dinv(t))
  by associativity of the product on the extended reals alone (Messages.lean): the two programs hand the same
  messages to the same sum over targets. The three dense stages agree stage by stage: the edge perceptron's
  sigmoid, the projection x·W, and relu(agg + b)·W (their own modules).
-/
import proofs.«403854_j52819507806473_3_alg».proof.Proof.KValue
import proofs.«403854_j52819507806473_3_alg».proof.Proof.RefStages
import proofs.«403854_j52819507806473_3_alg».proof.Proof.Messages
import proofs.«403854_j52819507806473_3_alg».proof.Proof.RowRange
import proofs.«403854_j52819507806473_3_alg».proof.Proof.EdgeRef
import proofs.«403854_j52819507806473_3_alg».proof.Proof.Proj1Ref
import proofs.«403854_j52819507806473_3_alg».proof.Proof.Proj2Ref

noncomputable section

namespace Cert.Gcn

open Cert.KernelIdeal Cert.KernelIdeal.Gen Cert.Gcn Idealize.ShloMosaic Idealize.ShloMosaic.ValueIdx
open Cert.ReferenceIdeal.Read

/-! ## The two groupings -/

/-- Two layers in the normaliser grouping. -/
def twoLayersNorm (a1 : IVec S2x1600000 32) (ew : FVec Ideal S1600000x1 .f32) (h1 : FVec Ideal S50000x128 .f32)
    (second : FVec Ideal S50000x128 .f32 → FVec Ideal S50000x40 .f32) (a10 : FVec Ideal S40 .f32) : FVec Ideal S50000x40 .f32 :=
  addBias40
    (aggByNorm40
      (second (aggByNorm128 h1 (invSqrtDeg (withLoops (tgtWords a1)) (loopWeights ew)) (withLoops (srcWords a1)) (withLoops (tgtWords a1)) (loopWeights ew)))
      (invSqrtDeg (withLoops (tgtWords a1)) (loopWeights ew)) (withLoops (srcWords a1)) (withLoops (tgtWords a1)) (loopWeights ew))
    a10

theorem twoLayers_eq (a1 : IVec S2x1600000 32) (ew : FVec Ideal S1600000x1 .f32) (h1 : FVec Ideal S50000x128 .f32)
    (second : FVec Ideal S50000x128 .f32 → FVec Ideal S50000x40 .f32) (a10 : FVec Ideal S40 .f32)
    (hrows : inRows (startCol (withLoops (srcWords a1))) = fun _ => 1#1) :
    twoLayersScaled a1 ew h1 second a10 = twoLayersNorm a1 ew h1 second a10 := by
  unfold twoLayersScaled twoLayersNorm aggByScaledRows40 aggByScaledRows128 aggByNorm40 aggByNorm128
  rw [messages128 _ _ _ _ _ hrows, messages40 _ _ _ _ _ hrows]

/-! ## Every source word is a row number, under the precondition -/

theorem sources_in_rows (a1 : IVec S2x1600000 32)
    (h : ∀ e : Fin 1600000, -50000 ≤ (a1 (ix2 0 e)).toInt ∧ (a1 (ix2 0 e)).toInt < 50000) :
    inRows (startCol (withLoops (srcWords a1))) = fun _ => 1#1 :=
  Mask.inRows_ones (Mask.startCol (Mask.rowWords a1)) (Mask.startCol_range a1 h)

/-! ## The reference's result -/

variable (x0 : FVec Ideal S50000x128 .f32) (x1 : IVec S2x1600000 32) (x2 : FVec Ideal S1600000x16 .f32) (x3 : FVec Ideal S16x32 .f32)
  (x4 : FVec Ideal S32 .f32) (x5 : FVec Ideal S32x1 .f32) (x6 : FVec Ideal S1 .f32) (x7 : FVec Ideal S128x128 .f32) (x8 : FVec Ideal S128 .f32)
  (x9 : FVec Ideal S128x40 .f32) (x10 : FVec Ideal S40 .f32)

/-- The reference's edge weights with unit loops are the kernel's. -/
theorem ref_loopWeights : val_main_v24 (F := Ideal) x2 x3 x4 x5 x6 =
    loopWeights (Edge.edgeWeight x2 x3 (shapeCast S1x32 x4 shapeCasts_S32_S1x32) x5 (shapeCast S1x1 x6 shapeCasts_S1_S1x1)) := by
  rw [Ref.unitLoops]
  unfold loopWeights
  rw [← Edge.ref_edgeWeight x2 x3 x4 x5 x6 shapeCasts_S32_S1x32 shapeCasts_S1_S1x1]
  rfl

/-- The reference's second projection is relu(agg + b)·W of its first layer's sum. -/
theorem ref_second : val_main_v96 (F := Ideal) x0 x1 x2 x3 x4 x5 x6 x7 x8 x9 =
    Proj2.proj2 (val_main_v62 (F := Ideal) x0 x1 x2 x3 x4 x5 x6 x7) (shapeCast S1x128 x8 shapeCasts_S128_S1x128) x9 :=
  Proj2.ref_proj2 (val_main_v62 (F := Ideal) x0 x1 x2 x3 x4 x5 x6 x7) x8 x9 shapeCasts_S128_S1x128

/-- The reference's result is the normaliser grouping of the kernel's own stages. -/
theorem ref_value : val_main_v112 (F := Ideal) x0 x1 x2 x3 x4 x5 x6 x7 x8 x9 x10 =
    twoLayersNorm x1
      (Edge.edgeWeight x2 x3 (shapeCast S1x32 x4 shapeCasts_S32_S1x32) x5 (shapeCast S1x1 x6 shapeCasts_S1_S1x1))
      (Proj1.proj1 x0 x7)
      (fun A => Proj2.proj2 A (shapeCast S1x128 x8 shapeCasts_S128_S1x128) x9)
      x10 := by
  rw [Ref.output, Ref.layer2, ref_second, Ref.layer1, Proj1.ref_proj1, Ref.dinv, Ref.srcLoops, Ref.tgtLoops, ref_loopWeights]
  rfl

/-- Under the precondition's range of the source words, the reference's result is the kernel's. -/
theorem ref_eq_kernel (h : ∀ e : Fin 1600000, -50000 ≤ (x1 (ix2 0 e)).toInt ∧ (x1 (ix2 0 e)).toInt < 50000) :
    val_main_v112 (F := Ideal) x0 x1 x2 x3 x4 x5 x6 x7 x8 x9 x10 = kernelOut x0 x1 x2 x3 x4 x5 x6 x7 x8 x9 x10 :=
  (ref_value x0 x1 x2 x3 x4 x5 x6 x7 x8 x9 x10).trans (twoLayers_eq x1 _ _ _ x10 (sources_in_rows x1 h)).symm

end Cert.Gcn

end
-- ==== Proof.lean ====
/- The proof of `Cert.Claim` (proofs.«403854_j52819507806473_3_alg».proof.Defs): a two-layer graph convolution with learned
   edge weights. An edge perceptron gives every edge a weight in (0, 1); with one unit self-loop per node the
   weighted in-degrees give the symmetric normaliser dinv(s) · w · dinv(t) of an edge s → t; each layer projects
   the node features, sends every edge's normalised source row to its target and sums; relu and a bias between the
   layers, a bias after the second.
   The kernel computes the three dense stages (the perceptron, x·W, relu(agg + b)·W) in three regions and groups the
   edge product as (H(s) · dinv(s)) · (w · dinv(t)), looking the scaled rows up with a fill where a source word is no
   row number; the reference groups it as H(s) · ((dinv(s) · w) · dinv(t)) and clamps such a word. Under the
   precondition every source word is a row number (counting a negative one from the end), the fill is never chosen,
   and the two groupings agree by associativity of the product on the extended reals: no finiteness is used.
   Frames: the two kernels' are the generated launches of @main's thirteen segments; the reference's is its
   generated run with the result dropped. The idealization rewrote no operation, so `preserves` is trivial. -/
import proofs.«403854_j52819507806473_3_alg».proof.Defs
import proofs.«403854_j52819507806473_3_alg».proof.Proof.Gen.Kernel
import proofs.«403854_j52819507806473_3_alg».proof.Proof.Gen.Kernel.Skeleton
import proofs.«403854_j52819507806473_3_alg».proof.Proof.Gen.Kernel.Launch
import proofs.«403854_j52819507806473_3_alg».proof.Proof.Gen.Kernel.Points
import proofs.«403854_j52819507806473_3_alg».proof.Proof.Gen.Kernel.Frame
import proofs.«403854_j52819507806473_3_alg».proof.Proof.Gen.KernelIdeal
import proofs.«403854_j52819507806473_3_alg».proof.Proof.Gen.KernelIdeal.Skeleton
import proofs.«403854_j52819507806473_3_alg».proof.Proof.Gen.KernelIdeal.Launch
import proofs.«403854_j52819507806473_3_alg».proof.Proof.Gen.KernelIdeal.Points
import proofs.«403854_j52819507806473_3_alg».proof.Proof.Gen.KernelIdeal.Frame
import proofs.«403854_j52819507806473_3_alg».proof.Proof.Gen.ReferenceIdeal
import proofs.«403854_j52819507806473_3_alg».proof.Proof.Gen.Pre_finite_inputs
import proofs.«403854_j52819507806473_3_alg».proof.Proof.Gen.ReferenceIdeal.Run
import proofs.«403854_j52819507806473_3_alg».proof.Proof.Gen.ReferenceIdeal.Read
import proofs.«403854_j52819507806473_3_alg».proof.Proof.KRun
import proofs.«403854_j52819507806473_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result array at the kernel's function
    `kernelOut` of the arguments: the kernel by its run read back through @main, the reference because its own
    composed term is the normaliser grouping of the same stages, equal to the kernel's grouping once every source
    word is a row number. -/
theorem algebraic : Cert.algebraic_KernelIdeal_ReferenceIdeal := by
  intro m ρ m' ρ' hpre hagree
  refine ⟨fun c => Cert.Gcn.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Gcn.kernel_value m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v112_eq, h0, h1, h2, h3, h4, h5, h6, h7, h8, h9, h10]
    exact Cert.Gcn.ref_eq_kernel _ _ _ _ _ _ _ _ _ _ _ (Cert.Gcn.Mask.row_range m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
